-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S1x64 : Shape := ⟨2, ![1, 64]⟩
abbrev S1x40 : Shape := ⟨2, ![1, 40]⟩
abbrev S_ : Shape := ⟨0, ![]⟩
abbrev S1250000x1 : Shape := ⟨2, ![1250000, 1]⟩
abbrev S1250000x64 : Shape := ⟨2, ![1250000, 64]⟩
abbrev S10000x64 : Shape := ⟨2, ![10000, 64]⟩
abbrev S100000x40 : Shape := ⟨2, ![100000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 50
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S64x64, .bf16⟩
  | .hbm, ⟨15, _⟩ => ⟨S64x64, .bf16⟩
  | .hbm, ⟨16, _⟩ => ⟨S64x64, .bf16⟩
  | .hbm, ⟨17, _⟩ => ⟨S64x40, .bf16⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x40, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000x64, .f32⟩
  | .hbm, ⟨31, _⟩ => ⟨S_, .f32⟩
  | .hbm, ⟨32, _⟩ => ⟨S100000x64, .f32⟩
  | .hbm, ⟨33, _⟩ => ⟨S1250000x1, .i32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000x64, .f32⟩
  | .hbm, ⟨45, _⟩ => ⟨S_, .f32⟩
  | .hbm, ⟨46, _⟩ => ⟨S100000x64, .f32⟩
  | .hbm, ⟨47, _⟩ => ⟨S1250000x1, .i32⟩
  | .hbm, ⟨48, _⟩ => ⟨S100000x64, .f32⟩
  | .hbm, ⟨49, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .bf16⟩
  | .local _ .vmem, ⟨15, _⟩ => ⟨S1x64, .f32⟩
  | .local _ .vmem, ⟨16, _⟩ => ⟨S64x40, .bf16⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bitsLt_bf16_f32 : FTy.bits .bf16 < FTy.bits .f32
  shapeCasts_S64_S1x64 : S64.ShapeCasts S1x64
  shapeCasts_S40_S1x40 : S40.ShapeCasts S1x40
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .bf16 = 32 ∨ (Rect.block (s := S64x40) S64x40.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x40.size a ≤ S100000x40.size a
  hwx1_6 : ∀ i : grid1.Coords, EltTy.bits .f32 = 32 ∨ (Rect.block (s := S100000x40) S10000x40.size (cc1_transform_6 i) (hinb1_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v21) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x64, .f32⟩
  | .hbm, ⟨51, _⟩ => ⟨S_, .f32⟩
  | .hbm, ⟨52, _⟩ => ⟨S100000x64, .f32⟩
  | .hbm, ⟨53, _⟩ => ⟨S1250000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x40, .f32⟩
  | .hbm, ⟨64, _⟩ => ⟨S1x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x40, .f32⟩
  | .hbm, ⟨81, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_cst : Ref sig .tc := ⟨.hbm, 67, rfl⟩
abbrev main_call3_v0 : Ref sig .tc := ⟨.hbm, 68, rfl⟩
abbrev main_call3_cst_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_cst_1 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_v45 : Ref sig .tc := ⟨.hbm, 81, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  The mathematics both programs compute, one node at a time, on the extended reals.

  A node's feature row `z` (64 entries) is its own row plus the sum of its in-neighbours' rows.  A dense layer sends a row
  to `(∑ k, z k · w k j) + b j`; `hidden` is a dense layer followed by the maximum with zero.  The first convolution is
  two dense layers, each followed by that maximum; the second is a hidden layer, a dense layer into 40 logits and a
  log-softmax over them: the row's maximum `μ` (never below `−∞`), the shifted logits `y j − μ`, and
  `(y j − μ) − log (∑ k, exp (y k − μ))`.

  The zero and `−∞` are kept as the words the programs print (`0x00000000`, `0xFF800000`): the same word stands on both
  sides, so neither is ever evaluated here.
-/
import Idealize.ShloMosaic.PureOps.Ideal
import Idealize.ShloMosaic.Lib.ValueIdx

noncomputable section

open scoped BigOperators

namespace Cert.Gin

open Idealize.ShloMosaic

/-- The word `0x00000000` read as an extended real (it is `0`; nothing here needs to know). -/
abbrev zeroW : EReal := Ideal.ofBits .f32 0x00000000#32
/-- The word `0xFF800000` read as an extended real (it is `−∞`; nothing here needs to know). -/
abbrev negInfW : EReal := Ideal.ofBits .f32 0xFF800000#32

/-- A dense layer on one row: entry `j` of `z · w + b`. -/
def dense {n : ℕ} (w : Fin 64 → Fin n → EReal) (b : Fin n → EReal) (z : Fin 64 → EReal) (j : Fin n) : EReal :=
  (∑ k : Fin 64, z k * w k j) + b j

/-- A dense layer followed by the maximum with zero. -/
def hidden {n : ℕ} (w : Fin 64 → Fin n → EReal) (b : Fin n → EReal) (z : Fin 64 → EReal) (j : Fin n) : EReal :=
  max (dense w b z j) zeroW

/-- The first convolution's two layers on the row `z`, each followed by the maximum with zero. -/
def conv1 (wa : Fin 64 → Fin 64 → EReal) (ba : Fin 64 → EReal) (wb : Fin 64 → Fin 64 → EReal) (bb : Fin 64 → EReal)
    (z : Fin 64 → EReal) (j : Fin 64) : EReal :=
  hidden wb bb (hidden wa ba z) j

/-- The second convolution's logits on the row `z`: a hidden layer, then a dense layer into 40 classes. -/
def logits (wa : Fin 64 → Fin 64 → EReal) (ba : Fin 64 → EReal) (wb : Fin 64 → Fin 40 → EReal) (bb : Fin 40 → EReal)
    (z : Fin 64 → EReal) (j : Fin 40) : EReal :=
  dense wb bb (hidden wa ba z) j

/-- A row's maximum, folded from `−∞` and then joined with `−∞` once more, as both programs do. -/
def rowMax (y : Fin 40 → EReal) : EReal :=
  max negInfW ((Finset.univ : Finset (Fin 40)).fold max negInfW y)

/-- The logits shifted by the row's maximum. -/
def shifted (y : Fin 40 → EReal) (j : Fin 40) : EReal := y j - rowMax y

/-- The log-softmax of a row of logits. -/
def logSoftmax (y : Fin 40 → EReal) (j : Fin 40) : EReal :=
  shifted y j - Ideal.log (∑ k : Fin 40, Ideal.exp (shifted y k))

/-- The second convolution on the row `z`. -/
def conv2 (wa : Fin 64 → Fin 64 → EReal) (ba : Fin 64 → EReal) (wb : Fin 64 → Fin 40 → EReal) (bb : Fin 40 → EReal)
    (z : Fin 64 → EReal) (j : Fin 40) : EReal :=
  logSoftmax (logits wa ba wb bb z) j

/-! ## Arrays and their coordinates

The programs' arrays are functions of a shape's index; the mathematics above speaks of rows and columns.  These read an
array by coordinates and build one from a function of coordinates. -/

open Idealize.ShloMosaic.ValueIdx

/-- A rank-2 array as a function of its row and column. -/
abbrev mat {a b : ℕ} (x : (⟨2, ![a, b]⟩ : Shape).Idx → EReal) : Fin a → Fin b → EReal := fun p q => x (ix2 p q)
/-- A rank-1 array as a function of its coordinate. -/
abbrev vec1 {a : ℕ} (x : (⟨1, ![a]⟩ : Shape).Idx → EReal) : Fin a → EReal := fun p => x (ix1 p)
/-- The one row of a `1 × b` array. -/
abbrev rowOf {b : ℕ} (x : (⟨2, ![1, b]⟩ : Shape).Idx → EReal) : Fin b → EReal := fun q => x (ix2 (0 : Fin 1) q)
/-- The rank-2 array whose entry at row `p`, column `q` is `f p q`. -/
def arr2 {a b : ℕ} (f : Fin a → Fin b → EReal) : (⟨2, ![a, b]⟩ : Shape).Idx → EReal :=
  fun i => f ⟨(i 0).val, idx2_lt0 i⟩ ⟨(i 1).val, idx2_lt1 i⟩
theorem arr2_ix2 {a b : ℕ} (f : Fin a → Fin b → EReal) (p : Fin a) (q : Fin b) : arr2 f (ix2 p q) = f p q := rfl

/-- The first convolution over all nodes: node `r`'s row is `conv1` of its aggregate row plus its own row. -/
def conv1Arr (agg x : (⟨2, ![100000, 64]⟩ : Shape).Idx → EReal) (wa : Fin 64 → Fin 64 → EReal) (ba : Fin 64 → EReal)
    (wb : Fin 64 → Fin 64 → EReal) (bb : Fin 64 → EReal) : (⟨2, ![100000, 64]⟩ : Shape).Idx → EReal :=
  arr2 fun r j => conv1 wa ba wb bb (fun k => mat agg r k + mat x r k) j

/-- The second convolution over all nodes, with its log-softmax. -/
def conv2Arr (agg h : (⟨2, ![100000, 64]⟩ : Shape).Idx → EReal) (wa : Fin 64 → Fin 64 → EReal) (ba : Fin 64 → EReal)
    (wb : Fin 64 → Fin 40 → EReal) (bb : Fin 40 → EReal) : (⟨2, ![100000, 40]⟩ : Shape).Idx → EReal :=
  arr2 fun r j => conv2 wa ba wb bb (fun k => mat agg r k + mat h r k) j

end Cert.Gin

end
-- ==== Proof.Conv1Value.lean ====
import proofs.«152981_j80736795230253_1_alg».proof.Proof.Gen.KernelIdeal.Frame
import proofs.«152981_j80736795230253_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv1

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## A block of rows times a 64 × 64 matrix

The contraction pairs column `k` of the left operand's row with row `k` of the right operand: the left index at output
`(p, q)` and contraction position `k` is `(p, k)`, the right index `(k, q)`. -/

/-- The left operand's row is the output's row. -/
theorem lhs_rowsTimes_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contraction position. -/
theorem lhs_rowsTimes_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction position. -/
theorem rhs_rowsTimes_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column is the output's column. -/
theorem rhs_rowsTimes_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero accumulator, at row `p` and column `q`: the sum over `k` of the left operand's row `p`
    times the right operand's column `q`. -/
theorem rowsTimes_apply (a : FVec Ideal S10000x64 .bf16) (w : FVec Ideal S64x64 .bf16) (p : Fin 10000) (q : Fin 64) :
    matmul (F := Ideal) dot_S10000x64_S64x64_S10000x64_1_0_0_1_n_n none a w (constant (F := Ideal) S10000x64 .f32 0x00000000#32) (ix2 p q)
      = ∑ k : Fin 64, a (ix2 p k) * w (ix2 k q) := by
  refine (Ideal.matmul_constant_zero_apply dot_S10000x64_S64x64_S10000x64_1_0_0_1_n_n none a w (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_rowsTimes_0 _ _
    | ⟨1, _⟩ => exact (lhs_rowsTimes_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_rowsTimes_0 _ _).trans hk
    | ⟨1, _⟩ => exact rhs_rowsTimes_1 _ _)
  rw [el, er]

/-! ## One layer on a block: rows times weights, plus the bias row, then the maximum with zero -/

/-- A layer of the body on a block `z` of rows: the rows, narrowed to the weights' format, times the weight matrix into the
    zero accumulator, plus the bias row broadcast over the rows, then the maximum with the zero word. -/
abbrev layer (z : FVec Ideal S10000x64 .f32) (w : FVec Ideal S64x64 .bf16) (b : FVec Ideal S1x64 .f32) : FVec Ideal S10000x64 .f32 :=
  maximumf
    (addf
      (matmul (F := Ideal) dot_S10000x64_S64x64_S10000x64_1_0_0_1_n_n none (truncf .bf16 z bitsLt_bf16_f32)
        (shapeCast S64x64 w shapeCasts_S64x64_S64x64) (constant (F := Ideal) S10000x64 .f32 0x00000000#32))
      (broadcastTo S10000x64 (shapeCast S1x64 b shapeCasts_S1x64_S1x64) broadcasts_S1x64_S10000x64))
    (broadcast S10000x64 (Scalar.ofBits (F := Ideal) .f32 0x00000000#32))

/-- Entry `(p, q)` of a layer is the hidden layer of the specification on row `p` of the block: a change of format is the
    identity on the extended reals, the bias broadcast reads its one row, the product is the sum over the row. -/
theorem layer_apply (z : FVec Ideal S10000x64 .f32) (w : FVec Ideal S64x64 .bf16) (b : FVec Ideal S1x64 .f32) (p : Fin 10000) (q : Fin 64) :
    layer z w b (ix2 p q) = Cert.Gin.hidden (Cert.Gin.mat w) (Cert.Gin.rowOf b) (fun k => z (ix2 p k)) q := by
  unfold layer
  rw [shapeCast_self, shapeCast_self]
  show max (matmul (F := Ideal) dot_S10000x64_S64x64_S10000x64_1_0_0_1_n_n none (truncf .bf16 z bitsLt_bf16_f32) w (constant (F := Ideal) S10000x64 .f32 0x00000000#32) (ix2 p q)
      + broadcastTo S10000x64 b broadcasts_S1x64_S10000x64 (ix2 p q)) (Ideal.ofBits .f32 0x00000000#32) = _
  rw [rowsTimes_apply, broadcastTo_1b_ab_apply]
  rfl

/-! ## The body's stored value at an index -/

/-- The stored value is two layers over the sum of the aggregate block and the feature block. -/
theorem pay_eq_layers (x0 x1 : Vec Ideal S10000x64 .f32) (x2 : Vec Ideal S64x64 .bf16) (x3 : Vec Ideal S1x64 .f32)
    (x4 : Vec Ideal S64x64 .bf16) (x5 : Vec Ideal S1x64 .f32) :
    k0_pay1 (F := Ideal) x0 x1 x2 x3 x4 x5
      = layer (layer (addf (shapeCast S10000x64 x0 shapeCasts_S10000x64_S10000x64) x1) x2 x3) x4 x5 := rfl

/-- Entry `(p, q)` of the stored value is the first convolution of the specification on the row `p` of the aggregate block
    plus the row `p` of the feature block. -/
theorem pay_apply (x0 x1 : Vec Ideal S10000x64 .f32) (x2 : Vec Ideal S64x64 .bf16) (x3 : Vec Ideal S1x64 .f32)
    (x4 : Vec Ideal S64x64 .bf16) (x5 : Vec Ideal S1x64 .f32) (p : Fin 10000) (q : Fin 64) :
    k0_pay1 (F := Ideal) x0 x1 x2 x3 x4 x5 (ix2 p q)
      = Cert.Gin.conv1 (Cert.Gin.mat x2) (Cert.Gin.rowOf x3) (Cert.Gin.mat x4) (Cert.Gin.rowOf x5)
          (fun k => x0 (ix2 p k) + x1 (ix2 p k)) q := by
  rw [pay_eq_layers, layer_apply, shapeCast_self]
  unfold Cert.Gin.conv1
  refine congrArg (fun z => Cert.Gin.hidden (Cert.Gin.mat x4) (Cert.Gin.rowOf x5) z q) (funext fun k => ?_)
  rw [layer_apply]
  rfl

/-! ## Where the blocks sit in their arrays

Point `t` of the grid works on rows `t · 10000 … t · 10000 + 9999` of the three node arrays (block index `t` on the row
axis, `0` on the column axis); the weight and bias windows are their whole arrays at every point (block index `0` on
both axes). -/

theorem zero_offsets : (![0, 0] : Fin 2 → Nat) = fun _ => 0 := funext fun a => by fin_cases a <;> rfl

/-- The index maps at every point of the grid: block index `t` on the row axis of the three node windows, `0` everywhere else. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The grid has ten points. -/
theorem point_lt (t : Fin cfg0.N) : t.val < 10 := t.isLt

/-- The node row that row `p` of point `t`'s block is. -/
abbrev nodeRow (t : Fin cfg0.N) (p : Fin 10000) : Fin 100000 :=
  ⟨t.val * 10000 + p.val, by have := point_lt t; have := p.isLt; omega⟩

/-- Entry `(p, k)` of the aggregate window's block at point `t` is entry `(t · 10000 + p, k)` of the aggregate array. -/
theorem aggBlock_apply (c : Dev nD) (t : Fin cfg0.N) (p : Fin 10000) (k : Fin 64) :
    (iblk0 V c 0 t : Vec Ideal S10000x64 .f32) (ix2 p k) = (V c main_v21 : S100000x64.Idx → EReal) (ix2 (nodeRow t p) k) := by
  obtain ⟨⟨e0, e1⟩, -⟩ := index_facts t
  show V c main_v21 (((cfg0.win 0).blk t).view.emb (ix2 p k)) = V c main_v21 (ix2 (nodeRow t p) k)
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Entry `(p, k)` of the feature window's block at point `t` is entry `(t · 10000 + p, k)` of the feature array. -/
theorem featBlock_apply (c : Dev nD) (t : Fin cfg0.N) (p : Fin 10000) (k : Fin 64) :
    (iblk0 V c 1 t : Vec Ideal S10000x64 .f32) (ix2 p k) = (V c main_arg0 : S100000x64.Idx → EReal) (ix2 (nodeRow t p) k) := by
  obtain ⟨-, ⟨e0, e1⟩, -⟩ := index_facts t
  show V c main_arg0 (((cfg0.win 1).blk t).view.emb (ix2 p k)) = V c main_arg0 (ix2 (nodeRow t p) k)
  refine congrArg _ (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The first weight window's block is the whole first weight matrix, at every point. -/
theorem weightA_block (c : Dev nD) (t : Fin cfg0.N) : (iblk0 V c 2 t : Vec Ideal S64x64 .bf16) = V c main_v4 := by
  obtain ⟨-, -, ⟨e0, e1⟩, -⟩ := index_facts t
  funext y
  show V c main_v4 (((cfg0.win 2).blk t).view.emb y) = V c main_v4 y
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The first bias window's block is the whole first bias row, at every point. -/
theorem biasA_block (c : Dev nD) (t : Fin cfg0.N) : (iblk0 V c 3 t : Vec Ideal S1x64 .f32) = V c main_v8 := by
  obtain ⟨-, -, -, ⟨e0, e1⟩, -⟩ := index_facts t
  funext y
  show V c main_v8 (((cfg0.win 3).blk t).view.emb y) = V c main_v8 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The second weight window's block is the whole second weight matrix, at every point. -/
theorem weightB_block (c : Dev nD) (t : Fin cfg0.N) : (iblk0 V c 4 t : Vec Ideal S64x64 .bf16) = V c main_v5 := by
  obtain ⟨-, -, -, -, ⟨e0, e1⟩, -⟩ := index_facts t
  funext y
  show V c main_v5 (((cfg0.win 4).blk t).view.emb y) = V c main_v5 y
  refine congrArg _ (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The second bias window's block is the whole second bias row, at every point. -/
theorem biasB_block (c : Dev nD) (t : Fin cfg0.N) : (iblk0 V c 5 t : Vec Ideal S1x64 .f32) = V c main_v9 := by
  obtain ⟨-, -, -, -, -, ⟨e0, e1⟩, -⟩ := index_facts t
  funext y
  show V c main_v9 (((cfg0.win 5).blk t).view.emb y) = V c main_v9 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- Entry `(p, q)` of the output window's block at point `t` sits at `(t · 10000 + p, q)` of the output array. -/
theorem outBlock_emb (t : Fin cfg0.N) (p : Fin 10000) (q : Fin 64) :
    (((cfg0.win 6).blk t).view.emb (ix2 p q) : S100000x64.Idx) = ix2 (nodeRow t p) q := by
  obtain ⟨-, -, -, -, -, -, ⟨e0, e1⟩⟩ := index_facts t
  funext a
  apply Fin.ext
  match a with
  | ⟨0, _⟩ => show win0_6.index t (0 : Fin 2) * 10000 + 1 * p.val = t.val * 10000 + p.val; rw [e0]; omega
  | ⟨1, _⟩ => show win0_6.index t (1 : Fin 2) * 64 + 1 * q.val = q.val; rw [e1]; omega

/-! ## What a point writes back, and the whole array -/

/-- WHAT POINT `t` WRITES BACK is block `t` of the first convolution of the arrays as the region finds them: the one store
    through the whole staging buffer leaves the stored value; its entry `(p, q)` is the convolution on row `p` of the
    aggregate block plus row `p` of the feature block, which are row `t · 10000 + p` of their arrays, under the whole
    weight matrices and bias rows. -/
theorem flushed_eq (c : Dev nD) (t : Fin cfg0.N) :
    (dat0 (F := Ideal) V c).flushed 6 t
      = ((cfg0.win 6).blk t).view.read (Elt Ideal)
          (Cert.Gin.conv1Arr (V c main_v21) (V c main_arg0) (Cert.Gin.mat (V c main_v4)) (Cert.Gin.rowOf (V c main_v8))
            (Cert.Gin.mat (V c main_v5)) (Cert.Gin.rowOf (V c main_v9))) := by
  show (cfg0.win 6).cut (grid0.coords t) ((dat0 (F := Ideal) V c).after 6 t) = _
  rw [after0_6]
  unfold out0_6
  rw [View.canon_unit_zero zero_offsets]
  simp only [View.ld_unit_zero (S := S10000x64) zero_offsets, View.ld_unit_zero (S := S64x64) zero_offsets,
    View.ld_unit_zero (S := S1x64) zero_offsets]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
      = Cert.Gin.conv1Arr (V c main_v21) (V c main_arg0) (Cert.Gin.mat (V c main_v4)) (Cert.Gin.rowOf (V c main_v8))
          (Cert.Gin.mat (V c main_v5)) (Cert.Gin.rowOf (V c main_v9)) (((cfg0.win 6).blk t).view.emb (ix2 p q))
  rw [outBlock_emb]
  refine (pay_apply (iblk0 V c 0 t) (iblk0 V c 1 t) (iblk0 V c 2 t) (iblk0 V c 3 t) (iblk0 V c 4 t) (iblk0 V c 5 t) p q).trans ?_
  rw [weightA_block, biasA_block, weightB_block, biasB_block]
  unfold Cert.Gin.conv1Arr
  rw [Cert.Gin.arr2_ix2]
  refine congrArg (fun z => Cert.Gin.conv1 (Cert.Gin.mat (V c main_v4)) (Cert.Gin.rowOf (V c main_v8))
    (Cert.Gin.mat (V c main_v5)) (Cert.Gin.rowOf (V c main_v9)) z q) (funext fun k => ?_)
  rw [aggBlock_apply, featBlock_apply]

/-- An index of the output array is in point `t`'s block iff each coordinate is in the block's range on its axis. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- Every entry of the output array is in some point's block: row `r` is in the block of point `r / 10000`. -/
theorem covered (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have ht : (i 0).val / 10000 < cfg0.N := by show (i 0).val / 10000 < 10; omega
  obtain ⟨-, -, -, -, -, -, ⟨e0, e1⟩⟩ := index_facts ⟨(i 0).val / 10000, ht⟩
  refine ⟨⟨(i 0).val / 10000, ht⟩, flush0_6 _, ?_⟩
  rw [mem_blk]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 64 ≤ (i 1).val ∧ (i 1).val < win0_6.index ⟨(i 0).val / 10000, ht⟩ (1 : Fin 2) * 64 + 64
    rw [e1]; omega

/-- THE ARRAY region 0 leaves in its output window: the first convolution of the aggregate array (window 0) and the
    node features (window 1) under the two weight matrices (windows 2, 4) and the two bias rows (windows 3, 5), all
    as the region finds them. -/
theorem final (c : Dev nD) :
    (dat0 (F := Ideal) V c).arrAt 6 cfg0.N
      = Cert.Gin.conv1Arr (V c main_v21) (V c main_arg0) (Cert.Gin.mat (V c main_v4)) (Cert.Gin.rowOf (V c main_v8))
          (Cert.Gin.mat (V c main_v5)) (Cert.Gin.rowOf (V c main_v9)) :=
  (dat0 (F := Ideal) V c).arrAt_eq_of_cover 6 _ (fun t _ => flushed_eq V c t) covered

end Cert.KernelIdeal.Conv1

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Conv2Value.lean ====
import proofs.«152981_j80736795230253_1_alg».proof.Proof.Gen.KernelIdeal.Frame
import proofs.«152981_j80736795230253_1_alg».proof.Proof.Spec
import proofs.«152981_j80736795230253_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv2

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The two matrix products at an index

A product into the zero accumulator reads, at row `p` and column `q`, the sum over the 64 contracted positions `k` of
the left operand at `(p, k)` times the right operand at `(k, q)`. -/

theorem lhs_hid_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_hid_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_hid_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_hid_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The hidden layer's product `[10000, 64] · [64, 64]` at `(p, q)`. -/
theorem matmul_hid_apply (a : FVec Ideal S10000x64 .bf16) (w : FVec Ideal S64x64 .bf16) (p : Fin 10000) (q : Fin 64) :
    matmul (F := Ideal) dot_S10000x64_S64x64_S10000x64_1_0_0_1_n_n none a w (constant (F := Ideal) S10000x64 .f32 0x00000000#32) (ix2 p q)
      = ∑ k : Fin 64, a (ix2 p k) * w (ix2 k q) := by
  show FloatOps.matmul dot_S10000x64_S64x64_S10000x64_1_0_0_1_n_n none a w (constant (F := Ideal) S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun ax => Fin.ext (by
    match ax with
    | ⟨0, _⟩ => exact lhs_hid_0 _ _
    | ⟨1, _⟩ => exact (lhs_hid_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun ax => Fin.ext (by
    match ax with
    | ⟨0, _⟩ => exact (rhs_hid_0 _ _).trans hk
    | ⟨1, _⟩ => exact rhs_hid_1 _ _)
  rw [el, er]

theorem lhs_out_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_out_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem rhs_out_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem rhs_out_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The output layer's product `[10000, 64] · [64, 40]` at `(p, q)`. -/
theorem matmul_out_apply (a : FVec Ideal S10000x64 .bf16) (w : FVec Ideal S64x40 .bf16) (p : Fin 10000) (q : Fin 40) :
    matmul (F := Ideal) dot_S10000x64_S64x40_S10000x40_1_0_0_1_n_n none a w (constant (F := Ideal) S10000x40 .f32 0x00000000#32) (ix2 p q)
      = ∑ k : Fin 64, a (ix2 p k) * w (ix2 k q) := by
  show FloatOps.matmul dot_S10000x64_S64x40_S10000x40_1_0_0_1_n_n none a w (constant (F := Ideal) S10000x40 .f32 0x00000000#32) (ix2 p q) = _
  rw [Ideal.matmul_constant_zero_apply, ← Equiv.sum_comp (ValueIdx.contrEquiv1 dot_S10000x64_S64x40_S10000x40_1_0_0_1_n_n 64 rfl rfl).symm]
  refine Finset.sum_congr rfl fun k _ => ?_
  have hk := ValueIdx.contrEquiv1_symm_val dot_S10000x64_S64x40_S10000x40_1_0_0_1_n_n 64 rfl rfl k
  have el : dot_S10000x64_S64x40_S10000x40_1_0_0_1_n_n.lhsIdx (ix2 p q) ((ValueIdx.contrEquiv1 dot_S10000x64_S64x40_S10000x40_1_0_0_1_n_n 64 rfl rfl).symm k) = ix2 p k := funext fun ax => Fin.ext (by
    match ax with
    | ⟨0, _⟩ => exact lhs_out_0 _ _
    | ⟨1, _⟩ => exact (lhs_out_1 _ _).trans hk)
  have er : dot_S10000x64_S64x40_S10000x40_1_0_0_1_n_n.rhsIdx (ix2 p q) ((ValueIdx.contrEquiv1 dot_S10000x64_S64x40_S10000x40_1_0_0_1_n_n 64 rfl rfl).symm k) = ix2 k q := funext fun ax => Fin.ext (by
    match ax with
    | ⟨0, _⟩ => exact (rhs_out_0 _ _).trans hk
    | ⟨1, _⟩ => exact rhs_out_1 _ _)
  rw [el, er]

/-! ## The row maximum at an index -/

/-- At the extended reals, the maximum of an `[a, b]` array along its second axis (folded from the `−∞` word) reads, at
    row `i`, the fold of `max` from that word over the entries `(i, n)`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec 32) = 0xFF800000#32) (i : Fin a) :
    multiReduction (F := Ideal) .maximumf [1] ⟨1, ![a]⟩ src 0xFF800000#32 h hφ hacc (ix1 i)
      = (Finset.univ : Finset (Fin b)).fold max (Ideal.ofBits .f32 0xFF800000#32) (fun n => src (ix2 i n)) :=
  (Ideal.multiReduction_maximumf_single src 0xFF800000#32 h hφ hacc (ix1 i)).trans
    (congrArg (fun f => (Finset.univ : Finset (Fin b)).fold max (Ideal.ofBits .f32 0xFF800000#32) f)
      (funext fun k => congrArg src (funext fun ax => Fin.ext (by
        match ax with
        | ⟨0, _⟩ => rfl
        | ⟨1, _⟩ => rfl))))

/-! ## The body's three stages at an index

Each is stated over any vectors of the body's literal shapes. A change of float format is the identity on the extended
reals, a cast of a shape to itself is the identity, and the one bias row is read at every row. -/

/-- The hidden layer: row `p` of the sum of the two feature blocks, through the dense layer `(w, b)` and the maximum with
    the zero word, at column `q`. -/
theorem hidden_apply (x0 x1 : FVec Ideal S10000x64 .f32) (w : FVec Ideal S64x64 .bf16) (b : FVec Ideal S1x64 .f32)
    (h0 h1 : S10000x64.ShapeCasts S10000x64) (hw : S64x64.ShapeCasts S64x64) (hb : S1x64.ShapeCasts S1x64)
    (hbb : S1x64.Broadcasts S10000x64) (ht : FTy.bf16.bits < FTy.f32.bits) (p : Fin 10000) (q : Fin 64) :
    maximumf (F := Ideal)
        (addf
          (matmul dot_S10000x64_S64x64_S10000x64_1_0_0_1_n_n none
            (truncf .bf16 (addf (shapeCast S10000x64 x0 h0) (shapeCast S10000x64 x1 h1)) ht)
            (shapeCast S64x64 w hw) (constant S10000x64 .f32 0x00000000#32))
          (broadcastTo S10000x64 (shapeCast S1x64 b hb) hbb))
        (broadcast S10000x64 (Scalar.ofBits .f32 0x00000000#32)) (ix2 p q)
      = Cert.Gin.hidden (Cert.Gin.mat w) (Cert.Gin.rowOf b) (fun k => x0 (ix2 p k) + x1 (ix2 p k)) q := by
  rw [maximumf_apply, addf_apply, matmul_hid_apply, broadcastTo_1b_ab_apply, shapeCast_self, shapeCast_self,
    shapeCast_self, shapeCast_self]
  rfl

/-- The logits: row `p` of a hidden block through the dense layer `(w, b)` into the 40 classes, at class `q`. -/
theorem logits_apply (hv : FVec Ideal S10000x64 .f32) (w : FVec Ideal S64x40 .bf16) (b : FVec Ideal S1x40 .f32)
    (hw : S64x40.ShapeCasts S64x40) (hb : S1x40.ShapeCasts S1x40) (hbb : S1x40.Broadcasts S10000x40)
    (ht : FTy.bf16.bits < FTy.f32.bits) (p : Fin 10000) (q : Fin 40) :
    addf (F := Ideal)
        (matmul dot_S10000x64_S64x40_S10000x40_1_0_0_1_n_n none (truncf .bf16 hv ht) (shapeCast S64x40 w hw)
          (constant S10000x40 .f32 0x00000000#32))
        (broadcastTo S10000x40 (shapeCast S1x40 b hb) hbb) (ix2 p q)
      = Cert.Gin.dense (Cert.Gin.mat w) (Cert.Gin.rowOf b) (fun k => hv (ix2 p k)) q := by
  rw [addf_apply, matmul_out_apply, broadcastTo_1b_ab_apply, shapeCast_self, shapeCast_self]
  rfl

/-- The row maxima of a block of logits, never below `−∞`, kept as a column and broadcast back along the rows. -/
abbrev rowMaxCol (y : FVec Ideal S10000x40 .f32) (hr : S10000x40.Reduces [1] S10000) (hφ : FKind.Formats FTy.f32)
    (hneg : (0xFF800000#32 : BitVec 32) = 0xFF800000#32) (hc : S10000.ShapeCasts S10000x1)
    (hbc : S10000x1.Broadcasts S10000x40) : FVec Ideal S10000x40 .f32 :=
  broadcastTo S10000x40
    (shapeCast S10000x1
      (maximumf (broadcast S10000 (Scalar.ofBits .f32 0xFF800000#32))
        (multiReduction .maximumf [1] S10000 y 0xFF800000#32 hr hφ hneg)) hc) hbc

/-- At `(p, q)` it is the maximum of row `p`, whatever the column. -/
theorem rowMaxCol_apply (y : FVec Ideal S10000x40 .f32) (hr : S10000x40.Reduces [1] S10000) (hφ : FKind.Formats FTy.f32)
    (hneg : (0xFF800000#32 : BitVec 32) = 0xFF800000#32) (hc : S10000.ShapeCasts S10000x1)
    (hbc : S10000x1.Broadcasts S10000x40) (p : Fin 10000) (q : Fin 40) :
    rowMaxCol y hr hφ hneg hc hbc (ix2 p q) = Cert.Gin.rowMax (fun k => y (ix2 p k)) := by
  unfold rowMaxCol
  rw [Cert.Keepdims.broadcastTo_a1_ab_apply, Cert.Keepdims.shapeCast_a_a1_apply, maximumf_apply, broadcast_apply,
    rowMax_apply]
  rfl

/-- The log-softmax: the logits less their row's maximum, less the logarithm of the row's sum of the exponentials of those
    differences. -/
theorem logSoftmax_apply (y : FVec Ideal S10000x40 .f32) (hr : S10000x40.Reduces [1] S10000) (hφ : FKind.Formats FTy.f32)
    (hneg : (0xFF800000#32 : BitVec 32) = 0xFF800000#32) (hzero : (0x00000000#32 : BitVec 32) = 0x00000000#32)
    (hc : S10000.ShapeCasts S10000x1) (hbc : S10000x1.Broadcasts S10000x40) (p : Fin 10000) (q : Fin 40) :
    subf (F := Ideal) (subf y (rowMaxCol y hr hφ hneg hc hbc))
        (broadcastTo S10000x40
          (log (shapeCast S10000x1
            (multiReduction .add [1] S10000 (exp (subf y (rowMaxCol y hr hφ hneg hc hbc))) 0x00000000#32 hr hφ hzero) hc))
          hbc) (ix2 p q)
      = Cert.Gin.logSoftmax (fun k => y (ix2 p k)) q := by
  have hs : ∀ k : Fin 40, subf y (rowMaxCol y hr hφ hneg hc hbc) (ix2 p k) = Cert.Gin.shifted (fun k => y (ix2 p k)) k :=
    fun k => by rw [subf_apply, rowMaxCol_apply]; rfl
  rw [subf_apply, hs, Cert.Keepdims.broadcastTo_a1_ab_apply]
  show _ - Ideal.log (shapeCast S10000x1 _ hc (ix2 p (0 : Fin 1))) = _
  rw [Cert.Keepdims.shapeCast_a_a1_apply, Cert.Keepdims.rowSum_apply]
  show _ - Ideal.log (∑ n : Fin 40, Ideal.exp (subf y (rowMaxCol y hr hφ hneg hc hbc) (ix2 p n))) = _
  simp only [hs]
  rfl

/-! ## The payload at an index

The body's stored value, at row `p` of the block and class `q`, is the second convolution of row `p` of the sum of the two
feature blocks: the hidden layer, the logits, the log-softmax, in that order. -/

theorem pay_apply (x0 x1 : Vec Ideal S10000x64 .f32) (x2 : Vec Ideal S64x64 .bf16) (x3 : Vec Ideal S1x64 .f32)
    (x4 : Vec Ideal S64x40 .bf16) (x5 : Vec Ideal S1x40 .f32) (p : Fin 10000) (q : Fin 40) :
    k1_pay1 (F := Ideal) x0 x1 x2 x3 x4 x5 (ix2 p q)
      = Cert.Gin.conv2 (Cert.Gin.mat x2) (Cert.Gin.rowOf x3) (Cert.Gin.mat x4) (Cert.Gin.rowOf x5)
          (fun k => x0 (ix2 p k) + x1 (ix2 p k)) q := by
  unfold k1_pay1
  refine (logSoftmax_apply _ _ _ _ _ _ _ p q).trans ?_
  refine congrArg (fun f => Cert.Gin.logSoftmax f q) (funext fun k => ?_)
  refine (logits_apply _ x4 x5 _ _ _ _ p k).trans ?_
  refine congrArg (fun f => Cert.Gin.dense (Cert.Gin.mat x4) (Cert.Gin.rowOf x5) f k) (funext fun j => ?_)
  exact hidden_apply x0 x1 x2 x3 _ _ _ _ _ _ p j

/-! ## The blocks

At grid point `t` the three windows over node rows (the aggregate, the hidden features, the output) hold rows
`t · 10000 … t · 10000 + 9999` of their arrays; the weight and bias windows hold their whole arrays. -/

-- the TensorCore's buffer contents when the region is entered: any
variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the windows over node rows sit at block `t` of the rows and block 0 of the columns, the
    weight and bias windows at block 0 of both. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The node whose row is row `p` of block `t`. -/
def nodeRow (t : Fin cfg1.N) (p : Fin 10000) : Fin 100000 :=
  ⟨t.val * 10000 + p.val, by have h : t.val < 10 := lt_of_lt_of_eq t.isLt N_1; have := p.isLt; omega⟩

/-- The aggregate's block and the hidden features' block at point `t`, as arrays of extended reals. -/
abbrev aggBlk (c : Dev nD) (t : Fin cfg1.N) : Vec Ideal S10000x64 .f32 := iblk1 V c 0 t
abbrev featBlk (c : Dev nD) (t : Fin cfg1.N) : Vec Ideal S10000x64 .f32 := iblk1 V c 1 t

/-- Row `p` of the aggregate's block is the aggregate's row of that node. -/
theorem blk_agg (c : Dev nD) (t : Fin cfg1.N) (p : Fin 10000) (k : Fin 64) :
    aggBlk V c t (ix2 p k) = Cert.Gin.mat (V c main_v32) (nodeRow t p) k := by
  obtain ⟨e0, e1, -⟩ := idx_facts t
  show V c main_v32 (((cfg1.win 0).blk t).view.emb (ix2 p k)) = V c main_v32 (ix2 (nodeRow t p) k)
  refine congrArg (V c main_v32) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- Row `p` of the hidden features' block is that node's row of the hidden features. -/
theorem blk_feat (c : Dev nD) (t : Fin cfg1.N) (p : Fin 10000) (k : Fin 64) :
    featBlk V c t (ix2 p k) = Cert.Gin.mat (V c main_v22) (nodeRow t p) k := by
  obtain ⟨-, -, e0, e1, -⟩ := idx_facts t
  show V c main_v22 (((cfg1.win 1).blk t).view.emb (ix2 p k)) = V c main_v22 (ix2 (nodeRow t p) k)
  refine congrArg (V c main_v22) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

/-- The first weight window's block is the whole matrix. -/
theorem blk_w1 (c : Dev nD) (t : Fin cfg1.N) (a : Fin 64) (b : Fin 64) :
    iblk1 V c 2 t (ix2 a b) = V c main_v6 (ix2 a b) := by
  obtain ⟨-, -, -, -, e0, e1, -⟩ := idx_facts t
  show V c main_v6 (((cfg1.win 2).blk t).view.emb (ix2 a b)) = V c main_v6 (ix2 a b)
  refine congrArg (V c main_v6) (funext fun ax => Fin.ext ?_)
  match ax with
  | ⟨0, _⟩ => show win1_2.index t (0 : Fin 2) * 64 + 1 * a.val = a.val; omega
  | ⟨1, _⟩ => show win1_2.index t (1 : Fin 2) * 64 + 1 * b.val = b.val; omega

/-- The first bias window's block is the whole row. -/
theorem blk_b1 (c : Dev nD) (t : Fin cfg1.N) (a : Fin 1) (b : Fin 64) :
    iblk1 V c 3 t (ix2 a b) = V c main_v10 (ix2 a b) := by
  obtain ⟨-, -, -, -, -, -, e0, e1, -⟩ := idx_facts t
  show V c main_v10 (((cfg1.win 3).blk t).view.emb (ix2 a b)) = V c main_v10 (ix2 a b)
  refine congrArg (V c main_v10) (funext fun ax => Fin.ext ?_)
  match ax with
  | ⟨0, _⟩ => show win1_3.index t (0 : Fin 2) * 1 + 1 * a.val = a.val; omega
  | ⟨1, _⟩ => show win1_3.index t (1 : Fin 2) * 64 + 1 * b.val = b.val; omega

/-- The second weight window's block is the whole matrix. -/
theorem blk_w2 (c : Dev nD) (t : Fin cfg1.N) (a : Fin 64) (b : Fin 40) :
    iblk1 V c 4 t (ix2 a b) = V c main_v7 (ix2 a b) := by
  obtain ⟨-, -, -, -, -, -, -, -, e0, e1, -⟩ := idx_facts t
  show V c main_v7 (((cfg1.win 4).blk t).view.emb (ix2 a b)) = V c main_v7 (ix2 a b)
  refine congrArg (V c main_v7) (funext fun ax => Fin.ext ?_)
  match ax with
  | ⟨0, _⟩ => show win1_4.index t (0 : Fin 2) * 64 + 1 * a.val = a.val; omega
  | ⟨1, _⟩ => show win1_4.index t (1 : Fin 2) * 40 + 1 * b.val = b.val; omega

/-- The second bias window's block is the whole row. -/
theorem blk_b2 (c : Dev nD) (t : Fin cfg1.N) (a : Fin 1) (b : Fin 40) :
    iblk1 V c 5 t (ix2 a b) = V c main_v11 (ix2 a b) := by
  obtain ⟨-, -, -, -, -, -, -, -, -, -, e0, e1, -⟩ := idx_facts t
  show V c main_v11 (((cfg1.win 5).blk t).view.emb (ix2 a b)) = V c main_v11 (ix2 a b)
  refine congrArg (V c main_v11) (funext fun ax => Fin.ext ?_)
  match ax with
  | ⟨0, _⟩ => show win1_5.index t (0 : Fin 2) * 1 + 1 * a.val = a.val; omega
  | ⟨1, _⟩ => show win1_5.index t (1 : Fin 2) * 40 + 1 * b.val = b.val; omega

/-- Entry `(p, q)` of the output's block sits in the output array at that node's row, column `q`. -/
theorem out_emb (t : Fin cfg1.N) (p : Fin 10000) (q : Fin 40) :
    (((cfg1.win 6).blk t).view.emb (ix2 p q) : S100000x40.Idx) = ix2 (nodeRow t p) q := by
  obtain ⟨-, -, -, -, -, -, -, -, -, -, -, -, e0, e1⟩ := idx_facts t
  refine funext fun a => Fin.ext ?_
  match a with
  | ⟨0, _⟩ => show win1_6.index t (0 : Fin 2) * 10000 + 1 * p.val = t.val * 10000 + p.val; omega
  | ⟨1, _⟩ => show win1_6.index t (1 : Fin 2) * 40 + 1 * q.val = q.val; omega

/-! ## From the blocks to the array -/

/-- What point `t` writes back is block `t` of the second convolution of the region's input arrays: the stored value at
    `(p, q)` is the convolution of row `p` of the two feature blocks, which are that node's rows of the two arrays, under
    the whole weight matrices and bias rows; and `(p, q)` of the block is that node's row, column `q`, of the array. -/
theorem flushed_eq (c : Dev nD) (t : Fin cfg1.N) :
    (dat1 (F := Ideal) V c).flushed 6 t
      = ((cfg1.win 6).blk t).view.read (Elt Ideal)
          (Cert.Gin.conv2Arr (V c main_v32) (V c main_v22) (Cert.Gin.mat (V c main_v6)) (Cert.Gin.rowOf (V c main_v10))
            (Cert.Gin.mat (V c main_v7)) (Cert.Gin.rowOf (V c main_v11))) := by
  show (cfg1.win 6).cut (grid1.coords t) ((dat1 V c).after 6 t) = _
  rw [after1_6]
  unfold out1_6
  rw [View.canon_unit_zero offsets_zero]
  simp only [View.ld_unit_zero (S := S10000x64) offsets_zero, View.ld_unit_zero (S := S64x64) offsets_zero,
    View.ld_unit_zero (S := S1x64) offsets_zero, View.ld_unit_zero (S := S64x40) offsets_zero,
    View.ld_unit_zero (S := S1x40) offsets_zero]
  funext j
  obtain ⟨p, q, rfl⟩ : ∃ (p : Fin 10000) (q : Fin 40), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = Cert.Gin.conv2Arr (V c main_v32) (V c main_v22) (Cert.Gin.mat (V c main_v6)) (Cert.Gin.rowOf (V c main_v10))
        (Cert.Gin.mat (V c main_v7)) (Cert.Gin.rowOf (V c main_v11)) (((cfg1.win 6).blk t).view.emb (ix2 p q))
  refine (pay_apply (iblk1 V c 0 t) (iblk1 V c 1 t) (iblk1 V c 2 t) (iblk1 V c 3 t) (iblk1 V c 4 t) (iblk1 V c 5 t) p q).trans ?_
  refine Eq.trans ?_ (congrArg (Cert.Gin.conv2Arr (V c main_v32) (V c main_v22) (Cert.Gin.mat (V c main_v6))
    (Cert.Gin.rowOf (V c main_v10)) (Cert.Gin.mat (V c main_v7)) (Cert.Gin.rowOf (V c main_v11))) (out_emb t p q).symm)
  unfold Cert.Gin.conv2Arr
  rw [Cert.Gin.arr2_ix2]
  have hw1 : Cert.Gin.mat (iblk1 V c 2 t) = Cert.Gin.mat (V c main_v6) := funext fun a => funext fun b => blk_w1 V c t a b
  have hb1 : Cert.Gin.rowOf (iblk1 V c 3 t) = Cert.Gin.rowOf (V c main_v10) := funext fun b => blk_b1 V c t 0 b
  have hw2 : Cert.Gin.mat (iblk1 V c 4 t) = Cert.Gin.mat (V c main_v7) := funext fun a => funext fun b => blk_w2 V c t a b
  have hb2 : Cert.Gin.rowOf (iblk1 V c 5 t) = Cert.Gin.rowOf (V c main_v11) := funext fun b => blk_b2 V c t 0 b
  have hrow : (fun k : Fin 64 => aggBlk V c t (ix2 p k) + featBlk V c t (ix2 p k))
      = fun k => Cert.Gin.mat (V c main_v32) (nodeRow t p) k + Cert.Gin.mat (V c main_v22) (nodeRow t p) k :=
    funext fun k => congrArg₂ (fun a b : EReal => a + b) (blk_agg V c t p k) (blk_feat V c t p k)
  rw [hw1, hb1, hw2, hb2]
  exact congrArg (fun z => Cert.Gin.conv2 (Cert.Gin.mat (V c main_v6)) (Cert.Gin.rowOf (V c main_v10))
    (Cert.Gin.mat (V c main_v7)) (Cert.Gin.rowOf (V c main_v11)) z q) hrow

/-- An index of the output array is in point `t`'s block iff each coordinate is in the block's range on its axis. -/
theorem mem_blk (t : Fin cfg1.N) (i : S100000x40.Idx) :
    i ∈ ((cfg1.win 6).blk t).view.set ↔ ∀ a : Fin 2, win1_6.index t a * S10000x40.size a ≤ (i a).val
      ∧ (i a).val < win1_6.index t a * S10000x40.size a + S10000x40.size a := by
  show i ∈ ((View.whole main_v33).slice (win1_6.rect t)).set ↔ _
  rw [View.set_slice_whole, Rect.mem_set_unit]
  exact Iff.rfl

/-- Every entry of the output array is written back: row `r` by the point `r / 10000`. -/
theorem cover (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ : ∃ t : Fin cfg1.N, t.val = (i 0).val / 10000 :=
    ⟨⟨(i 0).val / 10000, lt_of_lt_of_eq (show (i 0).val / 10000 < 10 by omega) N_1.symm⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 40 ≤ (i 1).val ∧ (i 1).val < win1_6.index t (1 : Fin 2) * 40 + 40
    omega

/-- THE ARRAY region 1 leaves in its output window: the second convolution, with its log-softmax, of the aggregate array
    (window 0) and the hidden features (window 1) under the two weight matrices (windows 2, 4) and the two bias rows
    (windows 3, 5), all as the region finds them. -/
theorem final (c : Dev nD) :
    (dat1 (F := Ideal) V c).arrAt 6 cfg1.N
      = Cert.Gin.conv2Arr (V c main_v32) (V c main_v22) (Cert.Gin.mat (V c main_v6)) (Cert.Gin.rowOf (V c main_v10))
          (Cert.Gin.mat (V c main_v7)) (Cert.Gin.rowOf (V c main_v11)) :=
  (dat1 (F := Ideal) V c).arrAt_eq_of_cover 6 _ (fun t _ => flushed_eq V c t) cover

end Cert.KernelIdeal.Conv2

end
-- ==== Proof.KernelValue.lean ====
/-
  What the idealized kernel's program returns, as one function of its arguments.

  Its @main is: host operations (the edge list's two rows, the weights' and biases' re-layouts, and the aggregate of the
  node features along the edges), the first convolution as a gridded region, host operations again (the aggregate of
  the hidden features along the same edges), and the second convolution as a gridded region.  The aggregate is the
  same chain of host operations both times — the source row with negative entries wrapped by the node count, a gather
  of rows at it, a scatter-add of those rows at the destination row into zeros — so it is named once (`aggOf`) and
  never opened.  The weights reach the regions through a change of float format, which at the extended reals is the
  identity, and the biases through a cast from [n] to [1, n], which keeps entry `j` at `(0, j)`.

  The two regions' own values (what each leaves in its output array, for any contents it is entered with) are taken
  here as hypotheses `Conv1Stmt` and `Conv2Stmt`; they are proved beside this module and supplied at the end.
-/
import proofs.«152981_j80736795230253_1_alg».proof.Proof.Gen.KernelIdeal.Frame
import proofs.«152981_j80736795230253_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]

/-- The edge list's row 0 (the sources) as a flat array. -/
abbrev srcRow (ei : (⟨S2x1250000, .i32⟩ : BufTy).Contents (Elt F)) : (⟨S1250000, .i32⟩ : BufTy).Contents (Elt F) :=
  shapeCast _ (extractStridedSlice S1x1250000 ![0, 0] ei slices_S2x1250000_S1x1250000_0_0) shapeCasts_S1x1250000_S1250000
/-- The edge list's row 1 (the destinations) as a flat array. -/
abbrev dstRow (ei : (⟨S2x1250000, .i32⟩ : BufTy).Contents (Elt F)) : (⟨S1250000, .i32⟩ : BufTy).Contents (Elt F) :=
  shapeCast _ (extractStridedSlice S1x1250000 ![1, 0] ei slices_S2x1250000_S1x1250000_1_0) shapeCasts_S1x1250000_S1250000

/-- THE AGGREGATE of the rows `h` along the edges: for each edge, row `src` of `h` (a negative source wrapped by the
    node count) added into row `dst` of an array of zeros.  One chain of host operations, never opened. -/
def aggOf (h : (⟨S100000x64, .f32⟩ : BufTy).Contents (Elt F)) (src dst : (⟨S1250000, .i32⟩ : BufTy).Contents (Elt F)) :
    (⟨S100000x64, .f32⟩ : BufTy).Contents (Elt F) :=
  Host.scatterAdd (F := F) scatter_S100000x64_S1250000x1_S1250000x64_1_0_0_1
    (broadcastInDim S100000x64 ![] bcast_S_S100000x64 (constant (F := F) S_ .f32 0x00000000#32))
    (broadcastInDim S1250000x1 ![0] bcast_S1250000_S1250000x1_0 dst)
    (Host.gather gather_S100000x64_S1250000x1_S1250000x64_1_0_n_n_0_1_164 h
      (broadcastInDim S1250000x1 ![0] bcast_S1250000_S1250000x1_0
        (select (cmpi .slt src (broadcastInDim S1250000 ![] bcast_S_S1250000 (constantI S_ 32 0#32)))
          (addi src (broadcastInDim S1250000 ![] bcast_S_S1250000 (constantI S_ 32 100000#32))) src)))

/-! ## The host stretches, from any contents -/

section Host
variable (W : Valuation τ sig (Elt F))

theorem pre_v1 : after hostOps0 W (Proc.devRef .tc main_v1) = srcRow (F := F) (W (Proc.devRef .tc main_arg1)) := by
  after_results <;> rfl
theorem pre_v3 : after hostOps0 W (Proc.devRef .tc main_v3) = dstRow (F := F) (W (Proc.devRef .tc main_arg1)) := by
  after_results <;> rfl
set_option maxHeartbeats 1000000 in
theorem pre_v21 : after hostOps0 W (Proc.devRef .tc main_v21)
    = aggOf (F := F) (W (Proc.devRef .tc main_arg0)) (srcRow (W (Proc.devRef .tc main_arg1))) (dstRow (W (Proc.devRef .tc main_arg1))) := by
  unfold aggOf
  after_results_simp <;> rfl
theorem pre_arg0 : after hostOps0 W (Proc.devRef .tc main_arg0) = W (Proc.devRef .tc main_arg0) := by
  after_results <;> rfl
theorem pre_v4 : after hostOps0 W (Proc.devRef .tc main_v4)
    = (truncf .bf16 (W (Proc.devRef .tc main_arg2) : (⟨S64x64, .f32⟩ : BufTy).Contents (Elt F)) bitsLt_bf16_f32 : (⟨S64x64, .bf16⟩ : BufTy).Contents (Elt F)) := by
  after_results <;> rfl
theorem pre_v5 : after hostOps0 W (Proc.devRef .tc main_v5)
    = (truncf .bf16 (W (Proc.devRef .tc main_arg4) : (⟨S64x64, .f32⟩ : BufTy).Contents (Elt F)) bitsLt_bf16_f32 : (⟨S64x64, .bf16⟩ : BufTy).Contents (Elt F)) := by
  after_results <;> rfl
theorem pre_v6 : after hostOps0 W (Proc.devRef .tc main_v6)
    = (truncf .bf16 (W (Proc.devRef .tc main_arg6) : (⟨S64x64, .f32⟩ : BufTy).Contents (Elt F)) bitsLt_bf16_f32 : (⟨S64x64, .bf16⟩ : BufTy).Contents (Elt F)) := by
  after_results <;> rfl
theorem pre_v7 : after hostOps0 W (Proc.devRef .tc main_v7)
    = (truncf .bf16 (W (Proc.devRef .tc main_arg8) : (⟨S64x40, .f32⟩ : BufTy).Contents (Elt F)) bitsLt_bf16_f32 : (⟨S64x40, .bf16⟩ : BufTy).Contents (Elt F)) := by
  after_results <;> rfl
theorem pre_v8 : after hostOps0 W (Proc.devRef .tc main_v8)
    = (shapeCast _ (W (Proc.devRef .tc main_arg3) : (⟨S64, .f32⟩ : BufTy).Contents (Elt F)) shapeCasts_S64_S1x64 : (⟨S1x64, .f32⟩ : BufTy).Contents (Elt F)) := by
  after_results <;> rfl
theorem pre_v9 : after hostOps0 W (Proc.devRef .tc main_v9)
    = (shapeCast _ (W (Proc.devRef .tc main_arg5) : (⟨S64, .f32⟩ : BufTy).Contents (Elt F)) shapeCasts_S64_S1x64 : (⟨S1x64, .f32⟩ : BufTy).Contents (Elt F)) := by
  after_results <;> rfl
theorem pre_v10 : after hostOps0 W (Proc.devRef .tc main_v10)
    = (shapeCast _ (W (Proc.devRef .tc main_arg7) : (⟨S64, .f32⟩ : BufTy).Contents (Elt F)) shapeCasts_S64_S1x64 : (⟨S1x64, .f32⟩ : BufTy).Contents (Elt F)) := by
  after_results <;> rfl
theorem pre_v11 : after hostOps0 W (Proc.devRef .tc main_v11)
    = (shapeCast _ (W (Proc.devRef .tc main_arg9) : (⟨S40, .f32⟩ : BufTy).Contents (Elt F)) shapeCasts_S40_S1x40 : (⟨S1x40, .f32⟩ : BufTy).Contents (Elt F)) := by
  after_results <;> rfl

theorem mid_v32 : after hostOps1 W (Proc.devRef .tc main_v32)
    = aggOf (F := F) (W (Proc.devRef .tc main_v22)) (W (Proc.devRef .tc main_v1)) (W (Proc.devRef .tc main_v3)) := by
  unfold aggOf
  after_results <;> rfl
theorem mid_v22 : after hostOps1 W (Proc.devRef .tc main_v22) = W (Proc.devRef .tc main_v22) := by
  after_results <;> rfl
theorem mid_v6 : after hostOps1 W (Proc.devRef .tc main_v6) = W (Proc.devRef .tc main_v6) := by
  after_results <;> rfl
theorem mid_v7 : after hostOps1 W (Proc.devRef .tc main_v7) = W (Proc.devRef .tc main_v7) := by
  after_results <;> rfl
theorem mid_v10 : after hostOps1 W (Proc.devRef .tc main_v10) = W (Proc.devRef .tc main_v10) := by
  after_results <;> rfl
theorem mid_v11 : after hostOps1 W (Proc.devRef .tc main_v11) = W (Proc.devRef .tc main_v11) := by
  after_results <;> rfl

end Host

/-! ## Re-layouts that change nothing -/

/-- A bias cast from [n] to [1, n] keeps entry `j` at `(0, j)`. -/
theorem rowOf_shapeCast {n : ℕ} (b : (⟨1, ![n]⟩ : Shape).Idx → EReal) (h : (⟨1, ![n]⟩ : Shape).ShapeCasts ⟨2, ![1, n]⟩) :
    Cert.Gin.rowOf (shapeCast ⟨2, ![1, n]⟩ b h) = Cert.Gin.vec1 b := by
  funext q
  exact shapeCast_apply b h _ _ (by
    rw [Shape.rowMajor_val_two, Shape.rowMajor_val_one]
    show q.val = 0 * n + q.val
    omega)

/-! ## The run's last boundary at the result array -/

/-- What region 0 leaves, for any entry contents: the first convolution of its windows' arrays. -/
def Conv1Stmt : Prop :=
  ∀ (V : (c : Dev nD) → (b : Ref sig .tc) → Buf (Elt Ideal) ((c : Thread nD τ).loc b)) (c : Dev nD),
    (dat0 (F := Ideal) V c).arrAt 6 cfg0.N
      = Cert.Gin.conv1Arr (V c main_v21) (V c main_arg0) (Cert.Gin.mat (V c main_v4)) (Cert.Gin.rowOf (V c main_v8))
          (Cert.Gin.mat (V c main_v5)) (Cert.Gin.rowOf (V c main_v9))

/-- What region 1 leaves, for any entry contents: the second convolution of its windows' arrays. -/
def Conv2Stmt : Prop :=
  ∀ (V : (c : Dev nD) → (b : Ref sig .tc) → Buf (Elt Ideal) ((c : Thread nD τ).loc b)) (c : Dev nD),
    (dat1 (F := Ideal) V c).arrAt 6 cfg1.N
      = Cert.Gin.conv2Arr (V c main_v32) (V c main_v22) (Cert.Gin.mat (V c main_v6)) (Cert.Gin.rowOf (V c main_v10))
          (Cert.Gin.mat (V c main_v7)) (Cert.Gin.rowOf (V c main_v11))

section Run
variable (m : (ℓ : Loc nD τ sig) → Buf (Elt Ideal) ℓ) (ρ : Dev nD → PrngReg)

/-- The hidden features: the first convolution of the launch contents. -/
def hidK (c : Dev nD) : (⟨S100000x64, .f32⟩ : BufTy).Contents (Elt Ideal) :=
  Cert.Gin.conv1Arr
    (aggOf (F := Ideal) (m ((c : Thread nD τ).loc main_arg0)) (srcRow (m ((c : Thread nD τ).loc main_arg1))) (dstRow (m ((c : Thread nD τ).loc main_arg1))))
    (m ((c : Thread nD τ).loc main_arg0))
    (Cert.Gin.mat (m ((c : Thread nD τ).loc main_arg2))) (Cert.Gin.vec1 (m ((c : Thread nD τ).loc main_arg3)))
    (Cert.Gin.mat (m ((c : Thread nD τ).loc main_arg4))) (Cert.Gin.vec1 (m ((c : Thread nD τ).loc main_arg5)))

/-- The kernel's result: the second convolution of the hidden features. -/
def outK (c : Dev nD) : (⟨S100000x40, .f32⟩ : BufTy).Contents (Elt Ideal) :=
  Cert.Gin.conv2Arr
    (aggOf (F := Ideal) (hidK m c) (srcRow (m ((c : Thread nD τ).loc main_arg1))) (dstRow (m ((c : Thread nD τ).loc main_arg1))))
    (hidK m c)
    (Cert.Gin.mat (m ((c : Thread nD τ).loc main_arg6))) (Cert.Gin.vec1 (m ((c : Thread nD τ).loc main_arg7)))
    (Cert.Gin.mat (m ((c : Thread nD τ).loc main_arg8))) (Cert.Gin.vec1 (m ((c : Thread nD τ).loc main_arg9)))

/-- Region 0's output array at its exit is the hidden features. -/
theorem W2_v22 (h0 : Conv1Stmt) (c : Dev nD) : W2 m ρ c (Proc.devRef .tc main_v22) = hidK m c := by
  refine (W2_arr m ρ c 6).trans ?_
  rw [h0 (V1 m ρ) c]
  unfold hidK
  show Cert.Gin.conv1Arr (after hostOps0 (W0 m ρ c) (Proc.devRef .tc main_v21)) (after hostOps0 (W0 m ρ c) (Proc.devRef .tc main_arg0))
      (Cert.Gin.mat (after hostOps0 (W0 m ρ c) (Proc.devRef .tc main_v4))) (Cert.Gin.rowOf (after hostOps0 (W0 m ρ c) (Proc.devRef .tc main_v8)))
      (Cert.Gin.mat (after hostOps0 (W0 m ρ c) (Proc.devRef .tc main_v5))) (Cert.Gin.rowOf (after hostOps0 (W0 m ρ c) (Proc.devRef .tc main_v9))) = _
  rw [pre_v21, pre_arg0, pre_v4, pre_v8, pre_v5, pre_v9, rowOf_shapeCast, rowOf_shapeCast]
  rfl

/-- THE RESULT ARRAY at the run's last boundary is `outK` of the launch contents. -/
theorem W4_v33 (h0 : Conv1Stmt) (h1 : Conv2Stmt) (c : Dev nD) : W4 m ρ c (Proc.devRef .tc main_v33) = outK m c := by
  refine (W4_arr m ρ c 6).trans ?_
  rw [h1 (V3 m ρ) c]
  unfold outK
  show Cert.Gin.conv2Arr (after hostOps1 (W2 m ρ c) (Proc.devRef .tc main_v32)) (after hostOps1 (W2 m ρ c) (Proc.devRef .tc main_v22))
      (Cert.Gin.mat (after hostOps1 (W2 m ρ c) (Proc.devRef .tc main_v6))) (Cert.Gin.rowOf (after hostOps1 (W2 m ρ c) (Proc.devRef .tc main_v10)))
      (Cert.Gin.mat (after hostOps1 (W2 m ρ c) (Proc.devRef .tc main_v7))) (Cert.Gin.rowOf (after hostOps1 (W2 m ρ c) (Proc.devRef .tc main_v11))) = _
  rw [mid_v32, mid_v22, mid_v6, mid_v10, mid_v7, mid_v11, W2_v22 m ρ h0 c,
    W2_of_ne m ρ c main_v1 (by decide), W2_of_ne m ρ c main_v3 (by decide), W2_of_ne m ρ c main_v6 (by decide),
    W2_of_ne m ρ c main_v10 (by decide), W2_of_ne m ρ c main_v7 (by decide), W2_of_ne m ρ c main_v11 (by decide)]
  show Cert.Gin.conv2Arr (aggOf (hidK m c) (after hostOps0 (W0 m ρ c) (Proc.devRef .tc main_v1)) (after hostOps0 (W0 m ρ c) (Proc.devRef .tc main_v3))) (hidK m c)
      (Cert.Gin.mat (after hostOps0 (W0 m ρ c) (Proc.devRef .tc main_v6))) (Cert.Gin.rowOf (after hostOps0 (W0 m ρ c) (Proc.devRef .tc main_v10)))
      (Cert.Gin.mat (after hostOps0 (W0 m ρ c) (Proc.devRef .tc main_v7))) (Cert.Gin.rowOf (after hostOps0 (W0 m ρ c) (Proc.devRef .tc main_v11))) = _
  rw [pre_v1, pre_v3, pre_v6, pre_v10, pre_v7, pre_v11, rowOf_shapeCast, rowOf_shapeCast]
  rfl

end Run

end Cert.KernelIdeal.Val

end
-- ==== Proof.RefStages.lean ====
/-
  The reference's computation as a few whole-array stages, each a composition of the host operations the reference
  program prints, generic in the float values.

  • `aggOf h src dst`: the aggregate of the rows `h` along the edges — a gather of rows of `h` at the sources (a negative
    source wrapped by the node count) scatter-added at the destinations into zeros;
  • `hiddenArr z w b`: `max (z · w + b) 0` on every row (the bias cast from [n] to [1, n] and broadcast over the rows);
  • `conv1R`: two such layers on `agg + x`;
  • `logitsArr`: a dense layer into 40 columns;  `logSoftmaxArr`: every row minus its maximum, minus the logarithm of the
    row sum of the exponentials;  `conv2R`: a hidden layer, the logits, the log-softmax, on `agg + h`;
  • `out`: the whole reference.
-/
import proofs.«152981_j80736795230253_1_alg».proof.Proof.Gen.ReferenceIdeal

noncomputable section

namespace Cert.ReferenceIdeal.Val

open Cert.ReferenceIdeal Cert.ReferenceIdeal.Gen Idealize.ShloMosaic

variable {F : FTy → Type} [FloatOps F]

/-- The arrays' types, by name. -/
abbrev Nodes64 (F : FTy → Type) : Type := (⟨S100000x64, .f32⟩ : BufTy).Contents (Elt F)
abbrev Nodes40 (F : FTy → Type) : Type := (⟨S100000x40, .f32⟩ : BufTy).Contents (Elt F)
abbrev Edges (F : FTy → Type) : Type := (⟨S2x1250000, .i32⟩ : BufTy).Contents (Elt F)
abbrev EdgeRow (F : FTy → Type) : Type := (⟨S1250000, .i32⟩ : BufTy).Contents (Elt F)
abbrev W64 (F : FTy → Type) : Type := (⟨S64x64, .f32⟩ : BufTy).Contents (Elt F)
abbrev W40 (F : FTy → Type) : Type := (⟨S64x40, .f32⟩ : BufTy).Contents (Elt F)
abbrev B64 (F : FTy → Type) : Type := (⟨S64, .f32⟩ : BufTy).Contents (Elt F)
abbrev B40 (F : FTy → Type) : Type := (⟨S40, .f32⟩ : BufTy).Contents (Elt F)

/-- The edge list's row 0 (the sources) as a flat array. -/
abbrev srcRow (ei : Edges F) : EdgeRow F :=
  shapeCast _ (extractStridedSlice S1x1250000 ![0, 0] ei slices_S2x1250000_S1x1250000_0_0) shapeCasts_S1x1250000_S1250000
/-- The edge list's row 1 (the destinations) as a flat array. -/
abbrev dstRow (ei : Edges F) : EdgeRow F :=
  shapeCast _ (extractStridedSlice S1x1250000 ![1, 0] ei slices_S2x1250000_S1x1250000_1_0) shapeCasts_S1x1250000_S1250000

/-- The array of zeros the aggregate and the maxima with zero start from. -/
abbrev zeros64 : Nodes64 F := broadcastInDim S100000x64 ![] bcast_S_S100000x64 (constant (F := F) S_ .f32 0x00000000#32)

/-- THE AGGREGATE of the rows `h` along the edges.  One chain of host operations, never opened. -/
def aggOf (h : Nodes64 F) (src dst : EdgeRow F) : Nodes64 F :=
  Host.scatterAdd (F := F) scatter_S100000x64_S1250000x1_S1250000x64_1_0_0_1 (zeros64 (F := F))
    (broadcastInDim S1250000x1 ![0] bcast_S1250000_S1250000x1_0 dst)
    (Host.gather gather_S100000x64_S1250000x1_S1250000x64_1_0_n_n_0_1_164 h
      (broadcastInDim S1250000x1 ![0] bcast_S1250000_S1250000x1_0
        (select (cmpi .slt src (broadcastInDim S1250000 ![] bcast_S_S1250000 (constantI S_ 32 0#32)))
          (addi src (broadcastInDim S1250000 ![] bcast_S_S1250000 (constantI S_ 32 100000#32))) src)))

/-- `max (z · w + b) 0` on every row: a dense layer into 64 columns and the maximum with zero. -/
def hiddenArr (z : Nodes64 F) (w : W64 F) (b : B64 F) : Nodes64 F :=
  maximumf
    (addf (Host.dotGeneral (F := F) dot_S100000x64_S64x64_S100000x64_1_0_0_1_n_n none z w)
      (broadcastInDim S100000x64 ![0, 1] bcast_S1x64_S100000x64_0_1 (broadcastInDim S1x64 ![1] bcast_S64_S1x64_1 b)))
    (zeros64 (F := F))

/-- The first convolution on whole arrays: two hidden layers on `agg + x`. -/
def conv1R (agg x : Nodes64 F) (wa : W64 F) (ba : B64 F) (wb : W64 F) (bb : B64 F) : Nodes64 F :=
  hiddenArr (hiddenArr (addf agg x) wa ba) wb bb

/-- A dense layer into 40 columns. -/
def logitsArr (z : Nodes64 F) (w : W40 F) (b : B40 F) : Nodes40 F :=
  addf (Host.dotGeneral (F := F) dot_S100000x64_S64x40_S100000x40_1_0_0_1_n_n none z w)
    (broadcastInDim S100000x40 ![0, 1] bcast_S1x40_S100000x40_0_1 (broadcastInDim S1x40 ![1] bcast_S40_S1x40_1 b))

/-- Every row minus its maximum (folded from `−∞` and joined with `−∞` once more). -/
def shiftedArr (y : Nodes40 F) : Nodes40 F :=
  subf y
    (broadcastInDim S100000x40 ![0, 1] bcast_S100000x1_S100000x40_0_1
      (broadcastInDim S100000x1 ![0] bcast_S100000_S100000x1_0
        (maximumf (broadcastInDim S100000 ![] bcast_S_S100000 (constant (F := F) S_ .f32 0xFF800000#32))
          (Host.reduce FloatOps.maximumf y (constant (F := F) S_ .f32 0xFF800000#32) reducesTo_S100000x40_S100000_d1 h_S_))))

/-- The log-softmax of every row. -/
def logSoftmaxArr (y : Nodes40 F) : Nodes40 F :=
  subf (shiftedArr y)
    (broadcastInDim S100000x40 ![0, 1] bcast_S100000x1_S100000x40_0_1
      (Host.log
        (broadcastInDim S100000x1 ![0] bcast_S100000_S100000x1_0
          (Host.reduceAdd (Host.exp (shiftedArr y)) (constant (F := F) S_ .f32 0x00000000#32) reducesTo_S100000x40_S100000_d1 h_S_))))

/-- The second convolution on whole arrays. -/
def conv2R (agg h : Nodes64 F) (wa : W64 F) (ba : B64 F) (wb : W40 F) (bb : B40 F) : Nodes40 F :=
  logSoftmaxArr (logitsArr (hiddenArr (addf agg h) wa ba) wb bb)

/-- The hidden features after the first convolution. -/
def hid (x : Nodes64 F) (ei : Edges F) (w1a : W64 F) (b1a : B64 F) (w1b : W64 F) (b1b : B64 F) : Nodes64 F :=
  conv1R (aggOf x (srcRow ei) (dstRow ei)) x w1a b1a w1b b1b

/-- THE REFERENCE: both convolutions. -/
def out (x : Nodes64 F) (ei : Edges F) (w1a : W64 F) (b1a : B64 F) (w1b : W64 F) (b1b : B64 F)
    (w2a : W64 F) (b2a : B64 F) (w2b : W40 F) (b2b : B40 F) : Nodes40 F :=
  conv2R (aggOf (hid x ei w1a b1a w1b b1b) (srcRow ei) (dstRow ei)) (hid x ei w1a b1a w1b b1b) w2a b2a w2b b2b

end Cert.ReferenceIdeal.Val

end
-- ==== Proof.RefRun.lean ====
/-
  The reference program's run, read back through its stages.

  The reference's @main is a straight line of 72 host operations.  Cut after the first aggregate, the first
  convolution, the second aggregate and the second convolution's logits, each piece computes one stage of
  `Cert.ReferenceIdeal.Val` (the aggregate `aggOf`, `conv1R`, `aggOf` again, the logits of a hidden layer, `logSoftmaxArr`)
  of what the pieces before it left, whatever the buffers held before; composed from the launch memory the result array
  ends at `Val.out` of the arguments, and no argument is written.
-/
import proofs.«152981_j80736795230253_1_alg».proof.Proof.Gen.ReferenceIdeal
import proofs.«152981_j80736795230253_1_alg».proof.Proof.RefStages
import Idealize.ShloMosaic.Lib.StableHlo.Run
import Idealize.ShloMosaic.Lib.Pipeline.Frame

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-! ## @main's operations, in five pieces -/

/-- The edge list's two rows, the wrapped sources, and the first aggregate (`main_v13`). -/
abbrev opsA : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_c (constantI S_ 32 0#32),
    unary main_c main_v4 (broadcastInDim S1250000 ![] bcast_S_S1250000 : (⟨S_, .i32⟩ : BufTy).Contents (Elt F) → (⟨S1250000, .i32⟩ : BufTy).Contents (Elt F)),
    binary main_v1 main_v4 main_v5 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v6 (broadcastInDim S1250000 ![] bcast_S_S1250000 : (⟨S_, .i32⟩ : BufTy).Contents (Elt F) → (⟨S1250000, .i32⟩ : BufTy).Contents (Elt F)),
    binary main_v1 main_v6 main_v7 (addi : (⟨S1250000, .i32⟩ : BufTy).Contents (Elt F) → (⟨S1250000, .i32⟩ : BufTy).Contents (Elt F) → (⟨S1250000, .i32⟩ : BufTy).Contents (Elt F)),
    ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v8 main_v9 (broadcastInDim S1250000x1 ![0] bcast_S1250000_S1250000x1_0 : (⟨S1250000, .i32⟩ : BufTy).Contents (Elt F) → (⟨S1250000x1, .i32⟩ : BufTy).Contents (Elt F)),
    binary main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1250000x1 ![0] bcast_S1250000_S1250000x1_0 : (⟨S1250000, .i32⟩ : BufTy).Contents (Elt F) → (⟨S1250000x1, .i32⟩ : BufTy).Contents (Elt F)),
    ternary main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

/-- The first convolution on whole arrays: `main_v14` … `main_v24`. -/
abbrev opsB : List (HloOp τ sig (Elt F)) :=
  [ binary main_v13 main_arg0 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v18) (TRef.of (T := ⟨S100000x64, .f32⟩) main_call0_v0) (TRef.of (T := ⟨S100000x64, .f32⟩) main_v19) maximumf,
    binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v23) (TRef.of (T := ⟨S100000x64, .f32⟩) main_call1_v0) (TRef.of (T := ⟨S100000x64, .f32⟩) main_v24) maximumf ]

/-- The wrapped sources again and the second aggregate (`main_v34`). -/
abbrev opsC : List (HloOp τ sig (Elt F)) :=
  [ nullary main_c_1 (constantI S_ 32 0#32),
    unary main_c_1 main_v25 (broadcastInDim S1250000 ![] bcast_S_S1250000 : (⟨S_, .i32⟩ : BufTy).Contents (Elt F) → (⟨S1250000, .i32⟩ : BufTy).Contents (Elt F)),
    binary main_v1 main_v25 main_v26 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v27 (broadcastInDim S1250000 ![] bcast_S_S1250000 : (⟨S_, .i32⟩ : BufTy).Contents (Elt F) → (⟨S1250000, .i32⟩ : BufTy).Contents (Elt F)),
    binary main_v1 main_v27 main_v28 (addi : (⟨S1250000, .i32⟩ : BufTy).Contents (Elt F) → (⟨S1250000, .i32⟩ : BufTy).Contents (Elt F) → (⟨S1250000, .i32⟩ : BufTy).Contents (Elt F)),
    ternary main_v26 main_v28 main_v1 main_v29 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v29 main_v30 (broadcastInDim S1250000x1 ![0] bcast_S1250000_S1250000x1_0 : (⟨S1250000, .i32⟩ : BufTy).Contents (Elt F) → (⟨S1250000x1, .i32⟩ : BufTy).Contents (Elt F)),
    binary main_v24 main_v30 main_v31 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_3 (constant S_ .f32 0x00000000#32),
    unary main_cst_3 main_v32 (broadcastInDim S100000x64 ![] bcast_S_S100000x64 : (⟨S_, .f32⟩ : BufTy).Contents (Elt F) → (⟨S100000x64, .f32⟩ : BufTy).Contents (Elt F)),
    unary main_v3 main_v33 (broadcastInDim S1250000x1 ![0] bcast_S1250000_S1250000x1_0 : (⟨S1250000, .i32⟩ : BufTy).Contents (Elt F) → (⟨S1250000x1, .i32⟩ : BufTy).Contents (Elt F)),
    ternary main_v32 main_v33 main_v31 main_v34 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

/-- The second convolution's hidden layer and logits: `main_v35` … `main_v44`. -/
abbrev opsD : List (HloOp τ sig (Elt F)) :=
  [ binary main_v34 main_v24 main_v35 (addf : (⟨S100000x64, .f32⟩ : BufTy).Contents (Elt F) → (⟨S100000x64, .f32⟩ : BufTy).Contents (Elt F) → (⟨S100000x64, .f32⟩ : BufTy).Contents (Elt F)),
    binary main_v35 main_arg6 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v39) (TRef.of (T := ⟨S100000x64, .f32⟩) main_call2_v0) (TRef.of (T := ⟨S100000x64, .f32⟩) main_v40) maximumf,
    binary main_v40 main_arg8 main_v41 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v42 (broadcastInDim S1x40 ![1] bcast_S40_S1x40_1 : (⟨S40, .f32⟩ : BufTy).Contents (Elt F) → (⟨S1x40, .f32⟩ : BufTy).Contents (Elt F)),
    unary main_v42 main_v43 (broadcastInDim S100000x40 ![0, 1] bcast_S1x40_S100000x40_0_1 : (⟨S1x40, .f32⟩ : BufTy).Contents (Elt F) → (⟨S100000x40, .f32⟩ : BufTy).Contents (Elt F)),
    binary main_v41 main_v43 main_v44 (addf : (⟨S100000x40, .f32⟩ : BufTy).Contents (Elt F) → (⟨S100000x40, .f32⟩ : BufTy).Contents (Elt F) → (⟨S100000x40, .f32⟩ : BufTy).Contents (Elt F)) ]

/-- The log-softmax, piece 1: every row's maximum folded from `−∞` (`main_call3_v0`). -/
abbrev opsEa : List (HloOp τ sig (Elt F)) :=
  [ TRef.nullary (TRef.of (T := ⟨S_, .f32⟩) main_call3_cst) (constant S_ .f32 0xFF800000#32),
    TRef.binary (TRef.of (T := ⟨S100000x40, .f32⟩) main_v44) (TRef.of (T := ⟨S_, .f32⟩) main_call3_cst) (TRef.of (T := ⟨S100000, .f32⟩) main_call3_v0) (fun x v => Host.reduce FloatOps.maximumf x v reducesTo_S100000x40_S100000_d1 h_S_) ]

/-- Piece 2: that maximum joined with `−∞` once more (`main_call3_v2`). -/
abbrev opsEb : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Piece 3: every row minus its maximum (`main_call3_v5`). -/
abbrev opsEc : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v44) (TRef.of (T := ⟨S100000x40, .f32⟩) main_call3_v4) (TRef.of (T := ⟨S100000x40, .f32⟩) main_call3_v5) subf ]

/-- Piece 4: the row sums of the exponentials (`main_call3_v7`). -/
abbrev opsEd : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- Piece 5: minus the logarithm of the row sum (`main_v45`). -/
abbrev opsEe : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v45) subf ]
/-- @main's 72 operations, in order. -/
abbrev ops : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_c (constantI S_ 32 0#32),
    unary main_c main_v4 (broadcastInDim S1250000 ![] bcast_S_S1250000 : (⟨S_, .i32⟩ : BufTy).Contents (Elt F) → (⟨S1250000, .i32⟩ : BufTy).Contents (Elt F)),
    binary main_v1 main_v4 main_v5 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v6 (broadcastInDim S1250000 ![] bcast_S_S1250000 : (⟨S_, .i32⟩ : BufTy).Contents (Elt F) → (⟨S1250000, .i32⟩ : BufTy).Contents (Elt F)),
    binary main_v1 main_v6 main_v7 (addi : (⟨S1250000, .i32⟩ : BufTy).Contents (Elt F) → (⟨S1250000, .i32⟩ : BufTy).Contents (Elt F) → (⟨S1250000, .i32⟩ : BufTy).Contents (Elt F)),
    ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v8 main_v9 (broadcastInDim S1250000x1 ![0] bcast_S1250000_S1250000x1_0 : (⟨S1250000, .i32⟩ : BufTy).Contents (Elt F) → (⟨S1250000x1, .i32⟩ : BufTy).Contents (Elt F)),
    binary main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1250000x1 ![0] bcast_S1250000_S1250000x1_0 : (⟨S1250000, .i32⟩ : BufTy).Contents (Elt F) → (⟨S1250000x1, .i32⟩ : BufTy).Contents (Elt F)),
    ternary main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_v13 main_arg0 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v18) (TRef.of (T := ⟨S100000x64, .f32⟩) main_call0_v0) (TRef.of (T := ⟨S100000x64, .f32⟩) main_v19) maximumf,
    binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v23) (TRef.of (T := ⟨S100000x64, .f32⟩) main_call1_v0) (TRef.of (T := ⟨S100000x64, .f32⟩) main_v24) maximumf,
    nullary main_c_1 (constantI S_ 32 0#32),
    unary main_c_1 main_v25 (broadcastInDim S1250000 ![] bcast_S_S1250000 : (⟨S_, .i32⟩ : BufTy).Contents (Elt F) → (⟨S1250000, .i32⟩ : BufTy).Contents (Elt F)),
    binary main_v1 main_v25 main_v26 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v27 (broadcastInDim S1250000 ![] bcast_S_S1250000 : (⟨S_, .i32⟩ : BufTy).Contents (Elt F) → (⟨S1250000, .i32⟩ : BufTy).Contents (Elt F)),
    binary main_v1 main_v27 main_v28 (addi : (⟨S1250000, .i32⟩ : BufTy).Contents (Elt F) → (⟨S1250000, .i32⟩ : BufTy).Contents (Elt F) → (⟨S1250000, .i32⟩ : BufTy).Contents (Elt F)),
    ternary main_v26 main_v28 main_v1 main_v29 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v29 main_v30 (broadcastInDim S1250000x1 ![0] bcast_S1250000_S1250000x1_0 : (⟨S1250000, .i32⟩ : BufTy).Contents (Elt F) → (⟨S1250000x1, .i32⟩ : BufTy).Contents (Elt F)),
    binary main_v24 main_v30 main_v31 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_3 (constant S_ .f32 0x00000000#32),
    unary main_cst_3 main_v32 (broadcastInDim S100000x64 ![] bcast_S_S100000x64 : (⟨S_, .f32⟩ : BufTy).Contents (Elt F) → (⟨S100000x64, .f32⟩ : BufTy).Contents (Elt F)),
    unary main_v3 main_v33 (broadcastInDim S1250000x1 ![0] bcast_S1250000_S1250000x1_0 : (⟨S1250000, .i32⟩ : BufTy).Contents (Elt F) → (⟨S1250000x1, .i32⟩ : BufTy).Contents (Elt F)),
    ternary main_v32 main_v33 main_v31 main_v34 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_v34 main_v24 main_v35 (addf : (⟨S100000x64, .f32⟩ : BufTy).Contents (Elt F) → (⟨S100000x64, .f32⟩ : BufTy).Contents (Elt F) → (⟨S100000x64, .f32⟩ : BufTy).Contents (Elt F)),
    binary main_v35 main_arg6 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v39) (TRef.of (T := ⟨S100000x64, .f32⟩) main_call2_v0) (TRef.of (T := ⟨S100000x64, .f32⟩) main_v40) maximumf,
    binary main_v40 main_arg8 main_v41 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v42 (broadcastInDim S1x40 ![1] bcast_S40_S1x40_1 : (⟨S40, .f32⟩ : BufTy).Contents (Elt F) → (⟨S1x40, .f32⟩ : BufTy).Contents (Elt F)),
    unary main_v42 main_v43 (broadcastInDim S100000x40 ![0, 1] bcast_S1x40_S100000x40_0_1 : (⟨S1x40, .f32⟩ : BufTy).Contents (Elt F) → (⟨S100000x40, .f32⟩ : BufTy).Contents (Elt F)),
    binary main_v41 main_v43 main_v44 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v44) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v44) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v45) subf ]

/-- The line is its nine pieces in a row. -/
theorem ops_split : (ops : List (HloOp τ sig (Elt F))) = opsA ++ (opsB ++ (opsC ++ (opsD ++ (opsEa ++ (opsEb ++ (opsEc ++ (opsEd ++ opsEe))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## Each piece, from any contents -/

section Pieces
variable (W : Valuation τ sig (Elt F))

theorem a_v1 : after opsA W (Proc.devRef .tc main_v1) = srcRow (F := F) (W (Proc.devRef .tc main_arg1)) := by
  after_results_simp <;> rfl
theorem a_v3 : after opsA W (Proc.devRef .tc main_v3) = dstRow (F := F) (W (Proc.devRef .tc main_arg1)) := by
  after_results_simp <;> rfl
set_option maxHeartbeats 1000000 in
theorem a_v13 : after opsA W (Proc.devRef .tc main_v13)
    = aggOf (F := F) (W (Proc.devRef .tc main_arg0)) (srcRow (W (Proc.devRef .tc main_arg1))) (dstRow (W (Proc.devRef .tc main_arg1))) := by
  unfold aggOf
  after_results_simp <;> rfl
theorem a_arg0 : after opsA W (Proc.devRef .tc main_arg0) = W (Proc.devRef .tc main_arg0) := by
  after_results_simp <;> rfl
theorem a_arg2 : after opsA W (Proc.devRef .tc main_arg2) = W (Proc.devRef .tc main_arg2) := by
  after_results_simp <;> rfl
theorem a_arg3 : after opsA W (Proc.devRef .tc main_arg3) = W (Proc.devRef .tc main_arg3) := by
  after_results_simp <;> rfl
theorem a_arg4 : after opsA W (Proc.devRef .tc main_arg4) = W (Proc.devRef .tc main_arg4) := by
  after_results_simp <;> rfl
theorem a_arg5 : after opsA W (Proc.devRef .tc main_arg5) = W (Proc.devRef .tc main_arg5) := by
  after_results_simp <;> rfl
theorem a_arg6 : after opsA W (Proc.devRef .tc main_arg6) = W (Proc.devRef .tc main_arg6) := by
  after_results_simp <;> rfl
theorem a_arg7 : after opsA W (Proc.devRef .tc main_arg7) = W (Proc.devRef .tc main_arg7) := by
  after_results_simp <;> rfl
theorem a_arg8 : after opsA W (Proc.devRef .tc main_arg8) = W (Proc.devRef .tc main_arg8) := by
  after_results_simp <;> rfl
theorem a_arg9 : after opsA W (Proc.devRef .tc main_arg9) = W (Proc.devRef .tc main_arg9) := by
  after_results_simp <;> rfl

set_option maxHeartbeats 1000000 in
theorem b_v24 : after opsB W (Proc.devRef .tc main_v24)
    = conv1R (F := F) (W (Proc.devRef .tc main_v13)) (W (Proc.devRef .tc main_arg0)) (W (Proc.devRef .tc main_arg2)) (W (Proc.devRef .tc main_arg3))
        (W (Proc.devRef .tc main_arg4)) (W (Proc.devRef .tc main_arg5)) := by
  unfold conv1R hiddenArr
  after_results_simp <;> rfl
theorem b_v1 : after opsB W (Proc.devRef .tc main_v1) = W (Proc.devRef .tc main_v1) := by
  after_results_simp <;> rfl
theorem b_v3 : after opsB W (Proc.devRef .tc main_v3) = W (Proc.devRef .tc main_v3) := by
  after_results_simp <;> rfl
theorem b_arg6 : after opsB W (Proc.devRef .tc main_arg6) = W (Proc.devRef .tc main_arg6) := by
  after_results_simp <;> rfl
theorem b_arg7 : after opsB W (Proc.devRef .tc main_arg7) = W (Proc.devRef .tc main_arg7) := by
  after_results_simp <;> rfl
theorem b_arg8 : after opsB W (Proc.devRef .tc main_arg8) = W (Proc.devRef .tc main_arg8) := by
  after_results_simp <;> rfl
theorem b_arg9 : after opsB W (Proc.devRef .tc main_arg9) = W (Proc.devRef .tc main_arg9) := by
  after_results_simp <;> rfl

set_option maxHeartbeats 1000000 in
theorem c_v34 : after opsC W (Proc.devRef .tc main_v34)
    = aggOf (F := F) (W (Proc.devRef .tc main_v24)) (W (Proc.devRef .tc main_v1)) (W (Proc.devRef .tc main_v3)) := by
  unfold aggOf
  after_results_simp <;> rfl
theorem c_v24 : after opsC W (Proc.devRef .tc main_v24) = W (Proc.devRef .tc main_v24) := by
  after_results_simp <;> rfl
theorem c_arg6 : after opsC W (Proc.devRef .tc main_arg6) = W (Proc.devRef .tc main_arg6) := by
  after_results_simp <;> rfl
theorem c_arg7 : after opsC W (Proc.devRef .tc main_arg7) = W (Proc.devRef .tc main_arg7) := by
  after_results_simp <;> rfl
theorem c_arg8 : after opsC W (Proc.devRef .tc main_arg8) = W (Proc.devRef .tc main_arg8) := by
  after_results_simp <;> rfl
theorem c_arg9 : after opsC W (Proc.devRef .tc main_arg9) = W (Proc.devRef .tc main_arg9) := by
  after_results_simp <;> rfl

set_option maxHeartbeats 1000000 in
theorem d_v44 : after opsD W (Proc.devRef .tc main_v44)
    = logitsArr (F := F) (hiddenArr (addf (W (Proc.devRef .tc main_v34)) (W (Proc.devRef .tc main_v24))) (W (Proc.devRef .tc main_arg6)) (W (Proc.devRef .tc main_arg7)))
        (W (Proc.devRef .tc main_arg8)) (W (Proc.devRef .tc main_arg9)) := by
  unfold logitsArr hiddenArr
  after_results_simp <;> rfl

abbrev Rows (F : FTy → Type) : Type := (⟨S100000, .f32⟩ : BufTy).Contents (Elt F)

-- the reductions, the exponential and the logarithm are compared as they stand, never opened
attribute [local irreducible] Host.reduce Host.reduceAdd Host.exp Host.log

theorem ea_v0 : after opsEa W (Proc.devRef .tc main_call3_v0)
    = Host.reduce FloatOps.maximumf (W (Proc.devRef .tc main_v44) : Nodes40 F) (constant (F := F) S_ .f32 0xFF800000#32) reducesTo_S100000x40_S100000_d1 h_S_ := by
  after_results_simp <;> rfl
theorem ea_v44 : after opsEa W (Proc.devRef .tc main_v44) = W (Proc.devRef .tc main_v44) := by
  after_results_simp <;> rfl
theorem eb_v2 : after opsEb W (Proc.devRef .tc main_call3_v2)
    = maximumf (broadcastInDim S100000 ![] bcast_S_S100000 (constant (F := F) S_ .f32 0xFF800000#32)) (W (Proc.devRef .tc main_call3_v0) : Rows F) := by
  after_results_simp <;> rfl
theorem eb_v44 : after opsEb W (Proc.devRef .tc main_v44) = W (Proc.devRef .tc main_v44) := by
  after_results_simp <;> rfl
theorem ec_v5 : after opsEc W (Proc.devRef .tc main_call3_v5)
    = subf (W (Proc.devRef .tc main_v44) : Nodes40 F)
        (broadcastInDim S100000x40 ![0, 1] bcast_S100000x1_S100000x40_0_1
          (broadcastInDim S100000x1 ![0] bcast_S100000_S100000x1_0 (W (Proc.devRef .tc main_call3_v2) : Rows F))) := by
  after_results_simp <;> rfl
theorem ed_v7 : after opsEd W (Proc.devRef .tc main_call3_v7)
    = Host.reduceAdd (Host.exp (W (Proc.devRef .tc main_call3_v5) : Nodes40 F)) (constant (F := F) S_ .f32 0x00000000#32) reducesTo_S100000x40_S100000_d1 h_S_ := by
  after_results_simp <;> rfl
theorem ed_v5 : after opsEd W (Proc.devRef .tc main_call3_v5) = W (Proc.devRef .tc main_call3_v5) := by
  after_results_simp <;> rfl
theorem ee_v45 : after opsEe W (Proc.devRef .tc main_v45)
    = subf (W (Proc.devRef .tc main_call3_v5) : Nodes40 F)
        (broadcastInDim S100000x40 ![0, 1] bcast_S100000x1_S100000x40_0_1
          (Host.log (broadcastInDim S100000x1 ![0] bcast_S100000_S100000x1_0 (W (Proc.devRef .tc main_call3_v7) : Rows F)))) := by
  after_results_simp <;> rfl

/-- THE RESULT ARRAY after all 72 operations, from any contents: `out` of the arguments' contents. -/
theorem ops_v45 : after ops W (Proc.devRef .tc main_v45)
    = out (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) (W (Proc.devRef .tc main_arg7))
        (W (Proc.devRef .tc main_arg8)) (W (Proc.devRef .tc main_arg9)) := by
  unfold out conv2R hid logSoftmaxArr shiftedArr
  rw [ops_split]
  simp only [after_append]
  rw [ee_v45, ed_v7, ed_v5, ec_v5, eb_v2, eb_v44, ea_v0, ea_v44, d_v44, c_v34, c_v24, c_arg6, c_arg7, c_arg8, c_arg9, b_v24, b_v1, b_v3, b_arg6, b_arg7, b_arg8, b_arg9,
    a_v13, a_v1, a_v3, a_arg0, a_arg2, a_arg3, a_arg4, a_arg5, a_arg6, a_arg7, a_arg8, a_arg9]

end Pieces

/-! ## The run -/

set_option maxRecDepth 8192 in
set_option maxHeartbeats 28800000 in
/-- On every device, for any float values, from any memory with zero counters: every weakly fair execution of the
    reference's @main terminates with the result array at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v45).trans (ops_v45 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Val

end
-- ==== Proof.RefValue.lean ====
import proofs.«152981_j80736795230253_1_alg».proof.Proof.RefStages
import proofs.«152981_j80736795230253_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen
open Idealize.ShloMosaic Idealize.ShloMosaic.ValueIdx

open scoped BigOperators

/-! ## The contraction over the 64 input columns, read at an entry

The host's product of the node rows `[100000, 64]` with a weight matrix contracts the rows' axis 1 against the weights'
axis 0.  Its operand indices at output entry `(r, j)` and contraction coordinate `k` are `(r, k)` and `(k, j)`: one fact
per operand and axis, then the sum re-indexed through the contraction shape's one coordinate. -/

/-- Left operand, axis 0 (kept): the output's row. -/
theorem dot64_lhs_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- Left operand, axis 1 (contracted): the contraction coordinate. -/
theorem dot64_lhs_col (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- Right operand, axis 0 (contracted): the contraction coordinate. -/
theorem dot64_rhs_row (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- Right operand, axis 1 (kept): the output's column. -/
theorem dot64_rhs_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- Entry `(r, j)` of `z · w` into 64 columns is `∑ k, z (r, k) · w (k, j)`. -/
theorem dot64_apply (z : Nodes64 Ideal) (w : W64 Ideal) (r : Fin 100000) (j : Fin 64) :
    Host.dotGeneral (F := Ideal) (φ₁ := .f32) (φ₂ := .f32) dot_S100000x64_S64x64_S100000x64_1_0_0_1_n_n none z w (ix2 r j)
      = ∑ k : Fin 64, z (ix2 r k) * w (ix2 k j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r j)
      ((ValueIdx.contrEquiv1 dot_S100000x64_S64x64_S100000x64_1_0_0_1_n_n 64 rfl rfl).symm k) = ix2 r k :=
    funext fun a => Fin.ext (by
      match a with
      | ⟨0, _⟩ => exact dot64_lhs_row _ _
      | ⟨1, _⟩ => exact (dot64_lhs_col _ _).trans hk)
  have er : dot_S100000x64_S64x64_S100000x64_1_0_0_1_n_n.rhsIdx (ix2 r j)
      ((ValueIdx.contrEquiv1 dot_S100000x64_S64x64_S100000x64_1_0_0_1_n_n 64 rfl rfl).symm k) = ix2 k j :=
    funext fun a => Fin.ext (by
      match a with
      | ⟨0, _⟩ => exact (dot64_rhs_row _ _).trans hk
      | ⟨1, _⟩ => exact dot64_rhs_col _ _)
  rw [el, er]

/-! ## The contraction into the 40 class columns, read at an entry -/

/-- Left operand, axis 0 (kept): the output's row. -/
theorem dot40_lhs_row (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
/-- Left operand, axis 1 (contracted): the contraction coordinate. -/
theorem dot40_lhs_col (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
/-- Right operand, axis 0 (contracted): the contraction coordinate. -/
theorem dot40_rhs_row (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
/-- Right operand, axis 1 (kept): the output's column. -/
theorem dot40_rhs_col (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- Entry `(r, j)` of `z · w` into 40 columns is `∑ k, z (r, k) · w (k, j)`. -/
theorem dot40_apply (z : Nodes64 Ideal) (w : W40 Ideal) (r : Fin 100000) (j : Fin 40) :
    Host.dotGeneral (F := Ideal) (φ₁ := .f32) (φ₂ := .f32) dot_S100000x64_S64x40_S100000x40_1_0_0_1_n_n none z w (ix2 r j)
      = ∑ k : Fin 64, z (ix2 r k) * w (ix2 k j) := by
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx (ix2 r j)
      ((ValueIdx.contrEquiv1 dot_S100000x64_S64x40_S100000x40_1_0_0_1_n_n 64 rfl rfl).symm k) = ix2 r k :=
    funext fun a => Fin.ext (by
      match a with
      | ⟨0, _⟩ => exact dot40_lhs_row _ _
      | ⟨1, _⟩ => exact (dot40_lhs_col _ _).trans hk)
  have er : dot_S100000x64_S64x40_S100000x40_1_0_0_1_n_n.rhsIdx (ix2 r j)
      ((ValueIdx.contrEquiv1 dot_S100000x64_S64x40_S100000x40_1_0_0_1_n_n 64 rfl rfl).symm k) = ix2 k j :=
    funext fun a => Fin.ext (by
      match a with
      | ⟨0, _⟩ => exact (dot40_rhs_row _ _).trans hk
      | ⟨1, _⟩ => exact dot40_rhs_col _ _)
  rw [el, er]

/-! ## The bias, cast to one row and copied down the rows, read at an entry -/

/-- The 64-entry bias as `[1, 64]` copied over the 100000 rows: entry `(r, j)` is `b j`. -/
theorem bias64_apply (b : B64 Ideal) (r : Fin 100000) (j : Fin 64) :
    broadcastInDim S100000x64 ![0, 1] bcast_S1x64_S100000x64_0_1 (broadcastInDim S1x64 ![1] bcast_S64_S1x64_1 b) (ix2 r j)
      = b (ix1 j) := by
  refine (broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The 40-entry bias as `[1, 40]` copied over the 100000 rows: entry `(r, j)` is `b j`. -/
theorem bias40_apply (b : B40 Ideal) (r : Fin 100000) (j : Fin 40) :
    broadcastInDim S100000x40 ![0, 1] bcast_S1x40_S100000x40_0_1 (broadcastInDim S1x40 ![1] bcast_S40_S1x40_1 b) (ix2 r j)
      = b (ix1 j) := by
  refine (broadcastInDim_apply _ bcast_S1x40_S100000x40_0_1 _ (ix2 r j) (ix2 (0 : Fin 1) j) (fun a => match a with
    | ⟨0, _⟩ => by show 0 = if (1 : Nat) = 1 then 0 else r.val; rw [if_pos rfl]
    | ⟨1, _⟩ => by show j.val = if (40 : Nat) = 1 then 0 else j.val; rw [if_neg (by decide)])).trans ?_
  exact broadcastInDim_apply _ bcast_S40_S1x40_1 b (ix2 (0 : Fin 1) j) (ix1 j) (fun a => match a with
    | ⟨0, _⟩ => by show j.val = if (40 : Nat) = 1 then 0 else j.val; rw [if_neg (by decide)])

/-- The array of zeros: every entry is the zero word's value. -/
theorem zeros64_apply (r : Fin 100000) (j : Fin 64) : zeros64 (F := Ideal) (ix2 r j) = Cert.Gin.zeroW :=
  broadcastInDim_apply _ bcast_S_S100000x64 (constant (F := Ideal) S_ .f32 0x00000000#32) (ix2 r j) (fun a => a.elim0)
    (fun a => a.elim0)

/-! ## The two dense stages at an entry -/

/-- Entry `(r, j)` of the hidden layer on whole arrays is the row-wise hidden layer of row `r` at `j`. -/
theorem hiddenArr_apply (z : Nodes64 Ideal) (w : W64 Ideal) (b : B64 Ideal) (r : Fin 100000) (j : Fin 64) :
    hiddenArr (F := Ideal) z w b (ix2 r j)
      = Cert.Gin.hidden (Cert.Gin.mat w) (Cert.Gin.vec1 b) (fun k => z (ix2 r k)) j := by
  unfold hiddenArr
  rw [maximumf_apply, addf_apply, dot64_apply, bias64_apply, zeros64_apply]
  rfl

/-- Entry `(r, j)` of the logits on whole arrays is the row-wise dense layer of row `r` at `j`. -/
theorem logitsArr_apply (z : Nodes64 Ideal) (w : W40 Ideal) (b : B40 Ideal) (r : Fin 100000) (j : Fin 40) :
    logitsArr (F := Ideal) z w b (ix2 r j)
      = Cert.Gin.dense (Cert.Gin.mat w) (Cert.Gin.vec1 b) (fun k => z (ix2 r k)) j := by
  unfold logitsArr
  rw [addf_apply, dot40_apply, bias40_apply]
  rfl

/-! ## The row maximum and the row sum: the reductions over the 40 columns, read at a row

Both reductions drop axis 1 of `[100000, 40]`.  The index over row `r` with column `k` put back is `(r, k)`. -/

/-- The reduced index `r` with column `k` put back is `(r, k)`. -/
theorem lift_row (h : S100000x40.Reduces [1] S100000) (r : Fin 100000) (k : Fin (S100000x40.size 1)) :
    h.lift (ix1 r) k = ix2 r (⟨k.val, k.isLt⟩ : Fin 40) :=
  funext fun ax => Fin.ext (by match ax with | ⟨0, _⟩ => rfl | ⟨1, _⟩ => rfl)

/-- The host's reduction with a maximum body from the word `0xFF800000`, at row `r`: the fold of `max` from that word's
    value over the row's 40 entries (the word is left as it stands). -/
theorem reduceMax_apply (y : Nodes40 Ideal) (r : Fin 100000) :
    Host.reduce (FloatOps.maximumf (F := Ideal) (φ := .f32)) y (constant (F := Ideal) S_ .f32 0xFF800000#32)
        reducesTo_S100000x40_S100000_d1 h_S_ (ix1 r)
      = (Finset.univ : Finset (Fin 40)).fold max Cert.Gin.negInfW (fun k => y (ix2 r k)) := by
  have h : S100000x40.Reduces [1] S100000 := by decide
  refine (Host.reduce_eq_fold_single (FloatOps.maximumf (F := Ideal) (φ := .f32)) y _ reducesTo_S100000x40_S100000_d1 h h_S_
    (ix1 r)).trans ?_
  have hf : (y ∘ h.lift (ix1 r)) = fun k : Fin 40 => y (ix2 r k) := funext fun k => congrArg y (lift_row h r k)
  exact congrArg (fun f => Finset.fold max Cert.Gin.negInfW f (Finset.univ : Finset (Fin 40))) hf

/-- The host's float sum from the zero word, at row `r`: the sum of the row's 40 entries. -/
theorem reduceSum_apply (e : Nodes40 Ideal) (r : Fin 100000) :
    Host.reduceAdd (F := Ideal) (φ := .f32) e (constant (F := Ideal) S_ .f32 0x00000000#32)
        reducesTo_S100000x40_S100000_d1 h_S_ (ix1 r)
      = ∑ k : Fin 40, e (ix2 r k) := by
  have h : S100000x40.Reduces [1] S100000 := by decide
  simp only [Host.reduceAdd, Ideal.hostReduceAdd_def]
  rw [Ideal.hostReduceAdd_single reducesTo_S100000x40_S100000_d1 h]
  refine (congrArg (· + _) Ideal.ofBits_zero_f32).trans ?_
  rw [zero_add]
  exact Finset.sum_congr rfl fun k _ => congrArg e (lift_row h r k)

/-! ## A vector over the rows as a column, and a column copied over the 40 columns -/

/-- The splat of the word `0xFF800000` over the rows: every entry is that word's value. -/
theorem negInfRow_apply (r : Fin 100000) :
    broadcastInDim S100000 ![] bcast_S_S100000 (constant (F := Ideal) S_ .f32 0xFF800000#32) (ix1 r) = Cert.Gin.negInfW :=
  broadcastInDim_apply _ bcast_S_S100000 (constant (F := Ideal) S_ .f32 0xFF800000#32) (ix1 r) (fun a => a.elim0)
    (fun a => a.elim0)

/-- A vector over the rows as a `[100000, 1]` column: entry `(r, 0)` is `v r`. -/
theorem colIn_apply (v : (⟨S100000, .f32⟩ : BufTy).Contents (Elt Ideal)) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- A `[100000, 1]` column copied over the 40 columns: entry `(r, j)` is the column's entry `(r, 0)`. -/
theorem colOut_apply (c : (⟨S100000x1, .f32⟩ : BufTy).Contents (Elt Ideal)) (r : Fin 100000) (j : Fin 40) :
    broadcastInDim S100000x40 ![0, 1] bcast_S100000x1_S100000x40_0_1 c (ix2 r j) = c (ix2 r (0 : Fin 1)) :=
  broadcastInDim_apply _ bcast_S100000x1_S100000x40_0_1 c (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-! ## The log-softmax stages at an entry -/

/-- The host's exponential and logarithm act entry by entry, and at the extended reals they are `exp` and `log`. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- Entry `(r, j)` of the shifted logits on whole arrays is row `r`'s entry minus the row's maximum. -/
theorem shiftedArr_apply (y : Nodes40 Ideal) (r : Fin 100000) (j : Fin 40) :
    shiftedArr (F := Ideal) y (ix2 r j) = Cert.Gin.shifted (fun k => y (ix2 r k)) j := by
  unfold shiftedArr Cert.Gin.shifted Cert.Gin.rowMax
  rw [subf_apply, colOut_apply, colIn_apply, maximumf_apply, negInfRow_apply, reduceMax_apply]

/-- Entry `(r, j)` of the log-softmax on whole arrays is the row-wise log-softmax of row `r` at `j`. -/
theorem logSoftmaxArr_apply (y : Nodes40 Ideal) (r : Fin 100000) (j : Fin 40) :
    logSoftmaxArr (F := Ideal) y (ix2 r j) = Cert.Gin.logSoftmax (fun k => y (ix2 r k)) j := by
  unfold logSoftmaxArr Cert.Gin.logSoftmax
  rw [subf_apply, shiftedArr_apply, colOut_apply]
  refine congrArg (Cert.Gin.shifted (fun k => y (ix2 r k)) j - ·) ?_
  rw [hostLog_apply, colIn_apply, reduceSum_apply]
  refine congrArg Ideal.log (Finset.sum_congr rfl fun k _ => ?_)
  rw [hostExp_apply, shiftedArr_apply]

/-- At the extended reals the reference's first convolution on whole arrays is, node by node, `conv1` of the node's
    aggregate row plus its own row. -/
theorem conv1R_eq (agg x : Nodes64 Ideal) (wa : W64 Ideal) (ba : B64 Ideal) (wb : W64 Ideal) (bb : B64 Ideal) :
    conv1R (F := Ideal) agg x wa ba wb bb
      = Cert.Gin.conv1Arr agg x (Cert.Gin.mat wa) (Cert.Gin.vec1 ba) (Cert.Gin.mat wb) (Cert.Gin.vec1 bb) := by
  funext i
  obtain ⟨r, j, rfl⟩ : ∃ (r : Fin 100000) (j : Fin 64), i = ix2 r j := ⟨i 0, i 1, eq_ix2 i⟩
  unfold conv1R Cert.Gin.conv1Arr
  rw [Cert.Gin.arr2_ix2, hiddenArr_apply]
  unfold Cert.Gin.conv1
  refine congrArg (fun f => Cert.Gin.hidden (Cert.Gin.mat wb) (Cert.Gin.vec1 bb) f j) (funext fun k => ?_)
  rw [hiddenArr_apply]
  rfl

/-- At the extended reals the reference's second convolution on whole arrays is, node by node, `conv2` (a hidden layer,
    the logits, the log-softmax) of the node's aggregate row plus its own row. -/
theorem conv2R_eq (agg h : Nodes64 Ideal) (wa : W64 Ideal) (ba : B64 Ideal) (wb : W40 Ideal) (bb : B40 Ideal) :
    conv2R (F := Ideal) agg h wa ba wb bb
      = Cert.Gin.conv2Arr agg h (Cert.Gin.mat wa) (Cert.Gin.vec1 ba) (Cert.Gin.mat wb) (Cert.Gin.vec1 bb) := by
  funext i
  obtain ⟨r, j, rfl⟩ : ∃ (r : Fin 100000) (j : Fin 40), i = ix2 r j := ⟨i 0, i 1, eq_ix2 i⟩
  unfold conv2R Cert.Gin.conv2Arr
  rw [Cert.Gin.arr2_ix2, logSoftmaxArr_apply]
  unfold Cert.Gin.conv2
  refine congrArg (fun f => Cert.Gin.logSoftmax f j) (funext fun c => ?_)
  rw [logitsArr_apply]
  unfold Cert.Gin.logits
  refine congrArg (fun f => Cert.Gin.dense (Cert.Gin.mat wb) (Cert.Gin.vec1 bb) f c) (funext fun k => ?_)
  rw [hiddenArr_apply]
  rfl

end Cert.ReferenceIdeal.Val

end
-- ==== Proof.Bridge.lean ====
/-
  The reference and the idealized kernel compute one function.

  Both aggregate along the edges by the same chain of host operations (`aggOf`, stated once per program over that
  program's own names: the two are one term), both convolutions are, node by node, the row functions `Cert.Gin.conv1`
  and `Cert.Gin.conv2` of the node's aggregate row plus its own row — for the reference by reading its whole-array
  operations at an index, for the kernel by reading what each grid point writes back — and so the reference's result
  `Val.out` of the argument arrays is the kernel's `Val.outK` of the same arrays.
-/
import proofs.«152981_j80736795230253_1_alg».proof.Proof.KernelValue
import proofs.«152981_j80736795230253_1_alg».proof.Proof.RefStages
import proofs.«152981_j80736795230253_1_alg».proof.Proof.RefValue

set_option maxRecDepth 16384

noncomputable section

namespace Cert.Bridge

open Idealize.ShloMosaic Idealize.ShloMosaic.TcCoe Idealize.SL.Sem

/-- The aggregate along the edges is one term in the two programs' vocabularies. -/
theorem aggOf_eq (h : Cert.ReferenceIdeal.Val.Nodes64 Ideal) (s d : Cert.ReferenceIdeal.Val.EdgeRow Ideal) :
    Cert.ReferenceIdeal.Val.aggOf (F := Ideal) h s d = Cert.KernelIdeal.Val.aggOf (F := Ideal) h s d := by
  unfold Cert.ReferenceIdeal.Val.aggOf Cert.KernelIdeal.Val.aggOf
  rfl

/-- The edge list's rows are one term in the two programs' vocabularies. -/
theorem srcRow_eq (ei : Cert.ReferenceIdeal.Val.Edges Ideal) :
    Cert.ReferenceIdeal.Val.srcRow (F := Ideal) ei = Cert.KernelIdeal.Val.srcRow (F := Ideal) ei := rfl
theorem dstRow_eq (ei : Cert.ReferenceIdeal.Val.Edges Ideal) :
    Cert.ReferenceIdeal.Val.dstRow (F := Ideal) ei = Cert.KernelIdeal.Val.dstRow (F := Ideal) ei := rfl

/-- THE REFERENCE'S RESULT of the kernel's argument arrays is the kernel's result. -/
theorem out_eq (m : (ℓ : Loc Cert.KernelIdeal.nD Cert.KernelIdeal.τ Cert.KernelIdeal.sig) → Buf (Elt Ideal) ℓ) (c : Dev Cert.KernelIdeal.nD) :
    Cert.ReferenceIdeal.Val.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
      = Cert.KernelIdeal.Val.outK m c := by
  unfold Cert.ReferenceIdeal.Val.out Cert.ReferenceIdeal.Val.hid Cert.KernelIdeal.Val.outK Cert.KernelIdeal.Val.hidK
  rw [Cert.ReferenceIdeal.Val.conv2R_eq, Cert.ReferenceIdeal.Val.conv1R_eq, aggOf_eq, aggOf_eq]

end Cert.Bridge

end
-- ==== Proof.lean ====
/-
  The certificate of a two-layer graph-isomorphism network: the kernel against its jnp reference, over the extended reals.

  The kernel's program aggregates the node features along the edges on the host (a gather of rows at the sources, a
  scatter-add at the destinations), runs the first convolution — `max ((max ((agg + x) · W1a + b1a) 0) · W1b + b1b) 0` —
  as a region gridded over ten blocks of 10000 nodes, aggregates the hidden features the same way, and runs the second
  convolution with its log-softmax as a second gridded region; the weights reach the regions in a narrower float
  format, which at the extended reals is the same number.  The reference does the same on whole arrays.

  • The three frames: the kernel's two (at the word level and idealized) are the generated frame certificates; the
    reference's is its run with the result dropped.
  • `preserves`: the idealization rewrote no operation.
  • `algebraic`: the kernel's run leaves the result array at `Val.outK` of the arguments (the run with the result named,
    then each region's value and the host stretches between them: Proof/KernelValue.lean over Proof/Conv1Value.lean and
    Proof/Conv2Value.lean); the reference's run leaves it at `Val.out` of the arguments (Proof/RefRun.lean); and the two
    are one function (Proof/Bridge.lean: node by node both are `Cert.Gin.conv2` after `Cert.Gin.conv1` of the same
    aggregates, a tiling into blocks of rows and a sum's spelling being all that differs).  No law of the extended reals
    beyond reading each operation at an index is used, so the precondition is never opened.
-/
import proofs.«152981_j80736795230253_1_alg».proof.Defs
import proofs.«152981_j80736795230253_1_alg».proof.Proof.Gen.Kernel
import proofs.«152981_j80736795230253_1_alg».proof.Proof.Gen.Kernel.Skeleton
import proofs.«152981_j80736795230253_1_alg».proof.Proof.Gen.Kernel.Launch
import proofs.«152981_j80736795230253_1_alg».proof.Proof.Gen.Kernel.Points
import proofs.«152981_j80736795230253_1_alg».proof.Proof.Gen.Kernel.Frame
import proofs.«152981_j80736795230253_1_alg».proof.Proof.Gen.KernelIdeal
import proofs.«152981_j80736795230253_1_alg».proof.Proof.Gen.KernelIdeal.Skeleton
import proofs.«152981_j80736795230253_1_alg».proof.Proof.Gen.KernelIdeal.Launch
import proofs.«152981_j80736795230253_1_alg».proof.Proof.Gen.KernelIdeal.Points
import proofs.«152981_j80736795230253_1_alg».proof.Proof.Gen.KernelIdeal.Frame
import proofs.«152981_j80736795230253_1_alg».proof.Proof.Gen.ReferenceIdeal
import proofs.«152981_j80736795230253_1_alg».proof.Proof.Gen.Pre_finite_inputs
import proofs.«152981_j80736795230253_1_alg».proof.Proof.KRun
import proofs.«152981_j80736795230253_1_alg».proof.Proof.Conv1Value
import proofs.«152981_j80736795230253_1_alg».proof.Proof.Conv2Value
import proofs.«152981_j80736795230253_1_alg».proof.Proof.KernelValue
import proofs.«152981_j80736795230253_1_alg».proof.Proof.RefRun
import proofs.«152981_j80736795230253_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Val.run (F := Ideal) m ρ)

/-- Each region's value, for any contents it is entered with. -/
theorem conv1 : Cert.KernelIdeal.Val.Conv1Stmt := fun V c => Cert.KernelIdeal.Conv1.final V c
theorem conv2 : Cert.KernelIdeal.Val.Conv2Stmt := fun V c => Cert.KernelIdeal.Conv2.final V c

/-- Both programs, from memories agreeing on the arguments, end with the result array at the kernel's function
    `Val.outK` of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.outK m c, ?_, ?_⟩
  · exact (θ_run Cert.KernelIdeal.defs _ _).mono
      (fun r h c => ⟨(h c).1.trans (Cert.KernelIdeal.Val.W4_v33 m ρ conv1 conv2 c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.Val.run (F := Ideal) m' ρ')
    obtain ⟨e0, e1, e2, e3, e4, e5, e6, e7, e8, e9⟩ := hagree c
    rw [e0, e1, e2, e3, e4, e5, e6, e7, e8, e9]
    exact Cert.Bridge.out_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
